-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S512x512 : Shape := ⟨2, ![512, 512]⟩
abbrev S1024x512 : Shape := ⟨2, ![1024, 512]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩
abbrev S_ : Shape := ⟨0, ![]⟩

abbrev nBuf : Space → Nat
  | .hbm => 10
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .bf16⟩
  | .hbm, ⟨3, _⟩ => ⟨S4096x1, .i32⟩
  | .hbm, ⟨4, _⟩ => ⟨S1x4096, .i32⟩
  | .hbm, ⟨5, _⟩ => ⟨S4096x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S1024x512, .bf16⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_20 : BitVec 32 := 0#32
  let v35 : BitVec 1 := Scalar.cmpi .ne v34 c0_i32_20
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  reducesTo_S4096x1_S_d0_1 : S4096x1.ReducesTo [0, 1] S_
  h_S_ : 0 < S_.numel
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .bf16 = 32 ∨ (Rect.block (s := S4096x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .i32 = 32 ∨ (Rect.block (s := S1x4096) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S512x4096 : Shape := ⟨2, ![512, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S512x4096, .f32⟩
  | .hbm, ⟨3, _⟩ => ⟨S4096x4096, .f32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_call1_v0 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_call2_cst : Ref sig .tc := ⟨.hbm, 24, rfl⟩
abbrev main_call2_v0 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  reducesTo_S4096_S_d0 : S4096.ReducesTo [0] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.K.Dats.lean ====
/-
  The proof data of the one pipelined region, on any float instance.

  The region walks a grid of 8 row blocks by 4 column tiles, the column tile the inner axis: point `t` is row block
  `t / 4`, tile `t % 4`. Two scratch vectors of 512 entries ride from point to point: the running minimum and the running
  maximum of the row block's rows. At a tile-0 point the body first resets them to the two sentinels; at every point it
  folds the tile's row minima / maxima into them; at a tile-3 point it also stores the rows' losses into the output block,
  which the pipeline then writes back. So the scratch contents after point `n` are a recursion on `n` that restarts
  every four points, and the output block after a tile-3 point is a function of the scratch contents there.

  The four input windows are never written by the body: each holds its array's block at every point. Windows 0 and 1
  read ONE array (the features, as row block and as column tile): the array's points-to is held in two halves.
-/
import proofs.«177996_j83717502533695_1_alg».proof.Proof.Gen.Kernel.Launch
import proofs.«177996_j83717502533695_1_alg».proof.Proof.Gen.Kernel.Skeleton
import proofs.«177996_j83717502533695_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the three host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types: the row block of features, the column tile of features,
    the row block's class words, the column tile's class words. -/
abbrev qblk (c : Dev nD) (t : Fin cfg0.N) : Vec F S512x512 .bf16 := iblk m c 0 t
abbrev kblk (c : Dev nD) (t : Fin cfg0.N) : Vec F S1024x512 .bf16 := iblk m c 1 t
abbrev qtblk (c : Dev nD) (t : Fin cfg0.N) : Vec F S512x1 .i32 := iblk m c 2 t
abbrev ktblk (c : Dev nD) (t : Fin cfg0.N) : Vec F S1x1024 .i32 := iblk m c 3 t

/-! ## The scratch vectors from point to point -/

/-- One point's fold: the tile's row minima folded into the running minimum, its row maxima into the running maximum. -/
def foldTile (c : Dev nD) (t : Fin cfg0.N) (s : Vec F S512x1 .f32 × Vec F S512x1 .f32) : Vec F S512x1 .f32 × Vec F S512x1 .f32 :=
  (k0_pay6 (qblk m c t) (kblk m c t) (qtblk m c t) (ktblk m c t) s.1, k0_pay7 (qblk m c t) (kblk m c t) (qtblk m c t) (ktblk m c t) s.2)

/-- The two sentinels a tile-0 point resets the scratch vectors to. -/
def resetPair : Vec F S512x1 .f32 × Vec F S512x1 .f32 := (k0_pay2 (F := F), k0_pay3 (F := F))

/-- The scratch vectors (running minimum, running maximum) after the body at position `n`. -/
def scAt (c : Dev nD) : (n : ℕ) → n < cfg0.N → Vec F S512x1 .f32 × Vec F S512x1 .f32
  | 0, hn => foldTile m c ⟨0, hn⟩ resetPair
  | n + 1, hn => foldTile m c ⟨n + 1, hn⟩ (if (n + 1) % 4 = 0 then resetPair else scAt c n (Nat.lt_of_succ_lt hn))

/-- At a tile-0 point the fold starts from the sentinels. -/
theorem scAt_reset (c : Dev nD) (t : Fin cfg0.N) (h0 : t.val % 4 = 0) :
    scAt m c t.val t.isLt = foldTile m c t resetPair := by
  obtain ⟨n, hn⟩ := t
  cases n with
  | zero => rfl
  | succ n => show foldTile m c _ (if (n + 1) % 4 = 0 then _ else _) = _; rw [if_pos h0]

/-- At any other point it continues from what the point before left. -/
theorem scAt_step (c : Dev nD) (t : Fin cfg0.N) (h0 : ¬ t.val % 4 = 0) :
    scAt m c t.val t.isLt = foldTile m c t (scAt m c (t.val - 1) (Nat.lt_of_le_of_lt (Nat.sub_le _ _) t.isLt)) := by
  obtain ⟨n, hn⟩ := t
  cases n with
  | zero => exact absurd (Nat.zero_mod _) h0
  | succ n => show foldTile m c _ (if (n + 1) % 4 = 0 then _ else _) = _; rw [if_neg h0]; rfl

/-- What a tile-3 point stores into the output block: the rows' losses from the scratch vectors there. -/
def outAt (c : Dev nD) (t : Fin cfg0.N) : Vec F S512x1 .f32 :=
  k0_pay1 (scAt m c t.val t.isLt).2 (scAt m c t.val t.isLt).1

/-! ## The scratch operands and the class invariant -/

/-- The two scratch operands: whole scoped buffers of the kernel's own. -/
abbrev scM0 : Memref sig .tc .vmem S512x1 .f32 := Memref.whole cc0_scratch0
abbrev scM1 : Memref sig .tc .vmem S512x1 .f32 := Memref.whole cc0_scratch1

/-- The class invariant with the scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The region invariant before position `n`: before the first point the class's (the scratch vectors at anything);
    afterwards the two scratch vectors at what the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare ((scAt m c n hn).1) ∗ owns (c : Thread nD τ) scM1 fullShare ((scAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((scAt m c n hn).1) ∗ owns (c : Thread nD τ) scM1 fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scM0 fullShare ((scAt m c (n - 1) (by omega)).1) ∗ owns (c : Thread nD τ) scM1 fullShare ((scAt m c (n - 1) (by omega)).2)) ∗ (∃ r, prngReg c r)) := by
  cases n with
  | zero => exact absurd rfl hz
  | succ n => rfl

/-! ## The proof data -/

/-- The proof data on core `c`: the arrays as the region finds them; after the body each input's buffer at its block
    and the output's at the rows' losses; the invariant `PhiS`; nothing owed; the feature array held in two halves by
    the two windows that read it, the class-word arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch vectors' contents are forgotten. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

end Cert.Kernel.Hand

end
-- ==== Proof.K.Body.lean ====
/-
  The kernel body run on whole staging buffers, in each of the three control cases a grid point can be in:
  the first tile of a row block (the scratch vectors are reset, then folded), a middle tile (folded), the last tile
  (folded, then the rows' losses stored into the output block).
-/
import proofs.«177996_j83717502533695_1_alg».proof.Proof.K.Dats
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the reset branch, from the grid coordinates: the column tile is the first. -/
abbrev cond0 (i : grid0.Coords) : Prop := (Scalar.cmpi .ne (Scalar.extui (Scalar.cmpi .eq (BitVec.ofNat 32 (i 1).val) 0#32)) 0#32) = 1#1
/-- The condition of the output branch: the column tile is the last. -/
abbrev cond1 (i : grid0.Coords) : Prop := k0_cond2 i = 1#1

/-- The zero offsets of a whole-block access, however spelt. -/
theorem hz2 : (![0, 0] : Fin 2 → Nat) = fun _ => 0 := by funext a; fin_cases a <;> rfl

set_option maxHeartbeats 2000000 in
/-- FIRST TILE of a row block: the scratch vectors, whatever they held, are reset to the sentinels and the tile is folded in; the inputs and the output block are left as found. -/
theorem run_first (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i)
    (x0 : Vec F S512x512 .bf16) (x1 : Vec F S1024x512 .bf16) (x2 : Vec F S512x1 .i32) (x3 : Vec F S1x1024 .i32) (d : Vec F S512x1 .f32) (s0 s1 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d ∗ owns (c : Thread nD τ) arg7 fullShare (k0_pay6 x0 x1 x2 x3 (k0_pay2 (F := F))) ∗ owns (c : Thread nD τ) arg8 fullShare (k0_pay7 x0 x1 x2 x3 (k0_pay3 (F := F)))) -∗ K ⟨⟩))
      ⊢ wp frame (wpE (defs₀ (F := F)) Variants.none c none) E (cc0__corr_loss_kernel i arg2 harg2 arg3 harg3 arg4 harg4 arg5 harg5 arg6 harg6 arg7 harg7 arg8 harg8) K := by
  simp only [cc0__corr_loss_kernel_eq_skeleton]; unfold cc0__corr_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]
  · iexists _; isplitr
    swap; · iexact HS1
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]

set_option maxHeartbeats 2000000 in
/-- A MIDDLE TILE: the tile is folded into the scratch vectors; the inputs and the output block are left as found. -/
theorem run_mid (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i)
    (x0 : Vec F S512x512 .bf16) (x1 : Vec F S1024x512 .bf16) (x2 : Vec F S512x1 .i32) (x3 : Vec F S1x1024 .i32) (d : Vec F S512x1 .f32) (s0 s1 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d ∗ owns (c : Thread nD τ) arg7 fullShare (k0_pay6 x0 x1 x2 x3 s0) ∗ owns (c : Thread nD τ) arg8 fullShare (k0_pay7 x0 x1 x2 x3 s1)) -∗ K ⟨⟩))
      ⊢ wp frame (wpE (defs₀ (F := F)) Variants.none c none) E (cc0__corr_loss_kernel i arg2 harg2 arg3 harg3 arg4 harg4 arg5 harg5 arg6 harg6 arg7 harg7 arg8 harg8) K := by
  simp only [cc0__corr_loss_kernel_eq_skeleton]; unfold cc0__corr_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]
  · iexists _; isplitr
    swap; · iexact HS1
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]

set_option maxHeartbeats 2000000 in
/-- THE LAST TILE of a row block: the tile is folded into the scratch vectors, and the rows' losses from the folded values are stored over the whole output block. -/
theorem run_last (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i)
    (x0 : Vec F S512x512 .bf16) (x1 : Vec F S1024x512 .bf16) (x2 : Vec F S512x1 .i32) (x3 : Vec F S1x1024 .i32) (d : Vec F S512x1 .f32) (s0 s1 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare (k0_pay1 (k0_pay7 x0 x1 x2 x3 s1) (k0_pay6 x0 x1 x2 x3 s0)) ∗ owns (c : Thread nD τ) arg7 fullShare (k0_pay6 x0 x1 x2 x3 s0) ∗ owns (c : Thread nD τ) arg8 fullShare (k0_pay7 x0 x1 x2 x3 s1)) -∗ K ⟨⟩))
      ⊢ wp frame (wpE (defs₀ (F := F)) Variants.none c none) E (cc0__corr_loss_kernel i arg2 harg2 arg3 harg3 arg4 harg4 arg5 harg5 arg6 harg6 arg7 harg7 arg8 harg8) K := by
  simp only [cc0__corr_loss_kernel_eq_skeleton]; unfold cc0__corr_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]
  isplitl [HS0]
  · iexists _; isplitr
    swap; · iexact HS0
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]
  · iexists _; isplitr
    swap; · iexact HS1
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]

end Cert.Kernel.Hand

end
-- ==== Proof.K.Oblig.lean ====
/-
  The body obligation of the region: at every grid point the kernel body, handed the invariant before the point and
  the windows' current staging buffers as the pipeline leaves them, runs to the invariant after the point and the
  buffers as the proof data say. Which of the three control cases a point is in is decided by its position modulo 4.
-/
import proofs.«177996_j83717502533695_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions over the grid, and where the output window is idle -/

/-- The reset branch is taken at the points ≡ 0 (mod 4): the first column tile of each row block. -/
theorem hcond0 : ∀ t : Fin cfg0.N, cond0 (grid0.coords t) ↔ t.val % 4 = 0 :=
  (by decide +kernel : ∀ t : Fin grid0.N, cond0 (grid0.coords t) ↔ t.val % 4 = 0)
/-- The output branch is taken at the points ≡ 3 (mod 4): the last column tile of each row block. -/
theorem hcond1 : ∀ t : Fin cfg0.N, cond1 (grid0.coords t) ↔ t.val % 4 = 3 :=
  (by decide +kernel : ∀ t : Fin grid0.N, cond1 (grid0.coords t) ↔ t.val % 4 = 3)

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last tile the output window is idle and its block is not written back. -/
theorem idleAt4 : ∀ t : Fin cfg0.N, ¬cond1 (grid0.coords t) → cfg0.idle 4 (grid0.coords t) = true := by decide +kernel
theorem noFlush4 : ∀ t : Fin cfg0.N, ¬cond1 (grid0.coords t) → (cfg0.win 4).flush t = false := by decide +kernel
/-- At the last tile it is live. -/
theorem liveAt4 : ∀ t : Fin cfg0.N, cond1 (grid0.coords t) → cfg0.idle 4 (grid0.coords t) = false := by decide +kernel

/-! ## The current staging memrefs, as the pipeline passes them -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)

/-! ## The inputs at their blocks -/

/-- Input window 0's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Input window 1's current staging buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Input window 2's current staging buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- Input window 3's current staging buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the point's position modulo 4 says which case it is
    in; the invariant hands the body the scratch vectors at what the point before left (at anything before the first
    point) and takes them back at this point's values; the output buffer is handed back untouched except at a last
    tile, where it is left at the rows' losses; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  rw [show (dats m 0 c).leavesExact 2 t = owns (c : Thread nD τ) (ms2 t) fullShare ((dats m 0 c).after 2 t) from by
    unfold Dat.leavesExact; rw [liveAt2 t], after0_2]
  rw [show (dats m 0 c).leavesExact 3 t = owns (c : Thread nD τ) (ms3 t) fullShare ((dats m 0 c).after 3 t) from by
    unfold Dat.leavesExact; rw [liveAt3 t], after0_3]
  have hN : t.val < 32 := lt_of_lt_of_eq t.isLt (show cfg0.N = 32 from N_0)
  by_cases h0 : t.val % 4 = 0
  · have h1 : ¬ t.val % 4 = 3 := by omega
    have hc0 : cond0 (grid0.coords t) := (hcond0 t).mpr h0
    have hc1 : ¬cond1 (grid0.coords t) := fun h => h1 ((hcond1 t).mp h)
    rw [Dat.leavesExact_idle (dats m 0 c) 4 t (idleAt4 t hc1) (noFlush4 t hc1)]
    rw [scAt_reset m c t h0]; unfold foldTile resetPair; (try dsimp only)
    by_cases hz : t.val = 0
    · rw [PhiS_castSucc m c t, PhiS_zero m c _ _ hz, PhiA0_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩⟩
      iapply (run_first c (grid0.coords t) (ms0 t) (hs0 t) (ms1 t) (hs1 t) (ms2 t) (hs2 t) (ms3 t) (hs3 t) (ms4 t) (hs4 t) scM0 (Memref.isWhole_whole _) scM1 (Memref.isWhole_whole _) hc0 hc1
        (qblk m c t) (kblk m c t) (qtblk m c t) (ktblk m c t) ((dats m 0 c).before 4 t d4) e0 e1 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          · iexact HS1
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_first c (grid0.coords t) (ms0 t) (hs0 t) (ms1 t) (hs1 t) (ms2 t) (hs2 t) (ms3 t) (hs3 t) (ms4 t) (hs4 t) scM0 (Memref.isWhole_whole _) scM1 (Memref.isWhole_whole _) hc0 hc1
        (qblk m c t) (kblk m c t) (qtblk m c t) (ktblk m c t) ((dats m 0 c).before 4 t d4) (scAt m c (t.val - 1) (Nat.lt_of_le_of_lt (Nat.sub_le _ _) t.isLt)).1 (scAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          · iexact HS1
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond0 (grid0.coords t) := fun h => h0 ((hcond0 t).mp h)
    rw [scAt_step m c t h0]; unfold foldTile; (try dsimp only)
    rw [PhiS_castSucc m c t, PhiS_pos m c _ _ hz]
    by_cases h1 : t.val % 4 = 3
    · have hc1 : cond1 (grid0.coords t) := (hcond1 t).mpr h1
      rw [show (dats m 0 c).leavesExact 4 t = owns (c : Thread nD τ) (ms4 t) fullShare ((dats m 0 c).after 4 t) from by
        unfold Dat.leavesExact; rw [liveAt4 t hc1], after0_4]
      unfold outAt; rw [scAt_step m c t h0]; unfold foldTile; (try dsimp only)
      iintro ⟨⟨⟨HS0, HS1⟩, Hg⟩, Ho, ⟨%d0, H0⟩, ⟨%d1, H1⟩, ⟨%d2, H2⟩, ⟨%d3, H3⟩, ⟨%d4, H4⟩⟩
      iapply (run_last c (grid0.coords t) (ms0 t) (hs0 t) (ms1 t) (hs1 t) (ms2 t) (hs2 t) (ms3 t) (hs3 t) (ms4 t) (hs4 t) scM0 (Memref.isWhole_whole _) scM1 (Memref.isWhole_whole _) hc0 hc1
        (qblk m c t) (kblk m c t) (qtblk m c t) (ktblk m c t) ((dats m 0 c).before 4 t d4) (scAt m c (t.val - 1) (Nat.lt_of_le_of_lt (Nat.sub_le _ _) t.isLt)).1 (scAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          · iexact HS1
        iexact Hg
      isplitl [Ho]; · iexact Ho
      isplitl [H0]; · iexact H0
      isplitl [H1]; · iexact H1
      isplitl [H2]; · iexact H2
      isplitl [H3]; · iexact H3
      iexact H4
    · have hc1 : ¬cond1 (grid0.coords t) := fun h => h1 ((hcond1 t).mp h)
      rw [Dat.leavesExact_idle (dats m 0 c) 4 t (idleAt4 t hc1) (noFlush4 t hc1)]
      iintro ⟨⟨⟨HS0, HS1⟩, Hg⟩, Ho, ⟨%d0, H0⟩, ⟨%d1, H1⟩, ⟨%d2, H2⟩, ⟨%d3, H3⟩, ⟨%d4, H4⟩⟩
      iapply (run_mid c (grid0.coords t) (ms0 t) (hs0 t) (ms1 t) (hs1 t) (ms2 t) (hs2 t) (ms3 t) (hs3 t) (ms4 t) (hs4 t) scM0 (Memref.isWhole_whole _) scM1 (Memref.isWhole_whole _) hc0 hc1
        (qblk m c t) (kblk m c t) (qtblk m c t) (ktblk m c t) ((dats m 0 c).before 4 t d4) (scAt m c (t.val - 1) (Nat.lt_of_le_of_lt (Nat.sub_le _ _) t.isLt)).1 (scAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          · iexact HS1
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.OutArr.lean ====
/-
  The output array as the region leaves it, named once for the module that runs the program and the one that reads its value.
-/
import proofs.«177996_j83717502533695_1_alg».proof.Proof.K.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The output array (4096 rows, one column) after every write-back of the region. -/
abbrev outArr (c : Dev nD) : Vec F S4096x1 .f32 := (dats m 0 c).arrAt 4 cfg0.N

end Cert.Kernel.Hand

end
-- ==== Proof.K.Launch.lean ====
/-
  The launch: the whole program run from any memory.

  The main function is three host operations (the features narrowed, the class words reshaped twice), the pipelined
  region, and four host operations (the output column summed from zero and divided by 4096). The region's five windows
  sit on four arrays: the narrowed features are read through two windows, so that array's points-to enters the region
  split in two halves; the other arrays enter whole. The host operations after the region read the output array and
  write buffers no window touches. At the end the result buffer holds the mean of the output column as the region
  left it, and the two argument arrays hold what they held at launch.
-/
import proofs.«177996_j83717502533695_1_alg».proof.Proof.K.Oblig
import proofs.«177996_j83717502533695_1_alg».proof.Proof.K.OutArr

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.BI (bigSepL bigSep_eq_bigSepL_of_eq)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The main function reduces to the region continued by the four later operations, entered at the contents the three
    earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The arrays at the region's entry -/

/-- The buffers behind the windows' arrays: four, the narrowed features counted once. -/
theorem arrRefs_eq : Finset.univ.image (Pipeline.arrRef spec0) = ([main_v0, main_v1, main_v2, main_v3] : List (Ref sig .tc)).toFinset := by decide

/-- The windows' holdings, each array a whole buffer, at the windows' shares. -/
theorem arrays_eq' (c : Dev nD) (G : (w : Fin cfg0.W) → Buf (Elt F) ((cfg0.win w).arr.view.loc (c.tc : Thread nD τ))) :
    ((dats m 0 c).arrays G : sProp 𝕄)
      = bigSep Finset.univ fun w : Fin 5 => (((c.tc : Thread nD τ).loc (Pipeline.arrRef spec0 w)) ↦{(dats m 0 c).share w} G w : sProp 𝕄) := by
  unfold Dat.arrays
  exact bigSep_congr fun w _ => by rw [(arr_whole0 w).set_eq_univ]

/-- The four buffers behind the windows' arrays, one by one. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v0) ↦{fullShare} W main_v0) ∗ (((c.tc : Thread nD τ).loc main_v1) ↦{fullShare} W main_v1)
          ∗ (((c.tc : Thread nD τ).loc main_v2) ↦{fullShare} W main_v2) ∗ (((c.tc : Thread nD τ).loc main_v3) ↦{fullShare} W main_v3)) :=
  bigSep_eq_bigSepL_of_eq [main_v0, main_v1, main_v2, main_v3] arrRefs_eq (by decide) _

/-- THE SPLIT. The four buffers behind the windows' arrays, each whole, are the five windows' holdings at the region's
    entry: the narrowed features in two halves, one per window that reads them. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrays_eq' m c, bigSep_W0, arrBufs0_eq]
  simp only [share0_0, share0_1, share0_2, share0_3, share0_4]
  rw [show (dats m 0 c).arrAt 0 0 = (dats m 0 c).A 0 from rfl, show (dats m 0 c).arrAt 1 0 = (dats m 0 c).A 1 from rfl,
    show (dats m 0 c).arrAt 2 0 = (dats m 0 c).A 2 from rfl, show (dats m 0 c).arrAt 3 0 = (dats m 0 c).A 3 from rfl,
    show (dats m 0 c).arrAt 4 0 = (dats m 0 c).A 4 from rfl, A_eq, A_eq, A_eq, A_eq, A_eq]
  iintro ⟨H0, H1, H2, H3⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  iexact H3

/-! ## After the region -/

/-- The core's buffer contents at the region's exit: the output array as the region left it, every other buffer as it
    was when the region was entered. -/
def Wexit (c : Dev nD) : Valuation τ sig (Elt F) :=
  Function.update (V0 m c) (Proc.devRef .tc main_v3) (outArr m c)

theorem Wexit_out (c : Dev nD) : Wexit m c (Proc.devRef .tc main_v3) = outArr m c :=
  Function.update_self _ _ _

theorem Wexit_of_ne (c : Dev nD) (b : Ref sig .tc) (hb : b ≠ main_v3) : Wexit m c (Proc.devRef .tc b) = V m c b :=
  Function.update_of_ne (StableHlo.devRef_ne_of_ne hb) _ _

/-- The contents after the four later operations. -/
abbrev Wend (c : Dev nD) : Valuation τ sig (Elt F) := StableHlo.after (List.flatten [hostOps1]) (Wexit m c)

/-- The four later operations write none of the buffers a window stages, nor the arguments. -/
theorem Wend_keep (c : Dev nD) (b : Ref sig .tc) (hb : b ∉ [main_cst, main_v4, main_cst_0, main_v5]) :
    Wend m c (Proc.devRef .tc b) = Wexit m c (Proc.devRef .tc b) := by
  refine StableHlo.after_of_writes_sub (W := [main_cst, main_v4, main_cst_0, main_v5]) _ _ ?_ hb
  simp only [List.flatten_cons, List.flatten_nil, List.append_nil, hostOps1, List.Forall, StableHlo.nullary_writes, StableHlo.binary_writes]
  refine ⟨?_, ?_, ?_, ?_⟩ <;> simp

/-- The input arrays are never written: they end as they were found. -/
theorem arrAt_in0 (c : Dev nD) (n : ℕ) : (dats m 0 c).arrAt 0 n = V m c main_v0 := ((dats m 0 c).arrAt_in 0 rfl n).trans (A_eq m c 0)
theorem arrAt_in1 (c : Dev nD) (n : ℕ) : (dats m 0 c).arrAt 1 n = V m c main_v0 := ((dats m 0 c).arrAt_in 1 rfl n).trans (A_eq m c 1)
theorem arrAt_in2 (c : Dev nD) (n : ℕ) : (dats m 0 c).arrAt 2 n = V m c main_v1 := ((dats m 0 c).arrAt_in 2 rfl n).trans (A_eq m c 2)
theorem arrAt_in3 (c : Dev nD) (n : ℕ) : (dats m 0 c).arrAt 3 n = V m c main_v2 := ((dats m 0 c).arrAt_in 3 rfl n).trans (A_eq m c 3)

/-- The buffers no window stages, at the end. -/
abbrev Zend (c : Dev nD) : sProp 𝕄 :=
  Pipeline.unscopedRest (Ix := Unit) (Name := ℕ) (U := UR sig nD τ) (Lvl := ℕ) spec0 c (fun b => Wend m c (Proc.devRef .tc b))

/-- The core's unscoped buffers held at a valuation: the four buffers behind the windows' arrays, and the rest. -/
theorem held_uc_eq (c : Dev nD) (W : Valuation τ sig (Elt F)) :
    (StableHlo.held (c.tc : Thread nD τ) (Pipeline.ucRefs τ sig) W : sProp 𝕄)
      = iprop(((((c.tc : Thread nD τ).loc main_v0) ↦{fullShare} W (Proc.devRef .tc main_v0)) ∗ (((c.tc : Thread nD τ).loc main_v1) ↦{fullShare} W (Proc.devRef .tc main_v1))
          ∗ (((c.tc : Thread nD τ).loc main_v2) ↦{fullShare} W (Proc.devRef .tc main_v2)) ∗ (((c.tc : Thread nD τ).loc main_v3) ↦{fullShare} W (Proc.devRef .tc main_v3)))
          ∗ Pipeline.unscopedRest (Ix := Unit) (Name := ℕ) (U := UR sig nD τ) (Lvl := ℕ) spec0 c (fun b => W (Proc.devRef .tc b))) := by
  rw [← Pipeline.unscopedBufs_held, Pipeline.unscopedBufs_split₀ cfgs 0 winFacts₀0.arr_unscoped c, arrBufs0_eq]

theorem hsub1 : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem hfresh1 : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- After the lines the core's unscoped buffers are again the windows' holdings, unchanged, and the rest at what the
    lines leave: the lines write no buffer a window stages. -/
theorem hend (c : Dev nD) :
    (StableHlo.held (c.tc : Thread nD τ) (Pipeline.ucRefs τ sig) (Wend m c) : sProp 𝕄)
      ⊢ iprop(((((c.tc : Thread nD τ).loc main_v0) ↦{fullShare.left} V m c main_v0) ∗ (((c.tc : Thread nD τ).loc main_v0) ↦{fullShare.right} V m c main_v0)
            ∗ (((c.tc : Thread nD τ).loc main_v1) ↦{fullShare} V m c main_v1) ∗ (((c.tc : Thread nD τ).loc main_v2) ↦{fullShare} V m c main_v2)
            ∗ (((c.tc : Thread nD τ).loc main_v3) ↦{fullShare} outArr m c)) ∗ Zend m c) := by
  rw [held_uc_eq, Wend_keep m c main_v0 (by decide), Wend_keep m c main_v1 (by decide), Wend_keep m c main_v2 (by decide), Wend_keep m c main_v3 (by decide),
    Wexit_out, Wexit_of_ne m c main_v0 (by decide), Wexit_of_ne m c main_v1 (by decide), Wexit_of_ne m c main_v2 (by decide)]
  have hhalf : (((c.tc : Thread nD τ).loc main_v0) ↦{fullShare} V m c main_v0 : sProp 𝕄)
      ⊣⊢ iprop((((c.tc : Thread nD τ).loc main_v0) ↦{fullShare.left} V m c main_v0) ∗ (((c.tc : Thread nD τ).loc main_v0) ↦{fullShare.right} V m c main_v0)) :=
    pointsTo_share (PosShare.mem_left_op_right fullShare)
  have hcut := hhalf.1
  iintro ⟨⟨B0, B1, B2, B3⟩, BR⟩
  ihave B0' := hcut $$ B0
  icases B0' with ⟨B0a, B0b⟩
  isplitr [BR]
  · isplitl [B0a]; · iexact B0a
    isplitl [B0b]; · iexact B0b
    isplitl [B1]; · iexact B1
    isplitl [B2]; · iexact B2
    iexact B3
  · iexact BR

set_option backward.isDefEq.respectTransparency.types false in
/-- THE LINES AFTER THE REGION. From the region's exit — the windows' holdings at their final contents, the other
    unscoped buffers as entered — the two halves of the narrowed features are put together again, the four operations
    run within the core's unscoped buffers, and the holdings are handed back unchanged, the other buffers at what the
    operations leave. -/
theorem htail (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c.tc : Thread nD τ) none) Set.univ
          (Pipeline.chain [StableHlo.seq hostOps1]) Q' := by
  rw [arrays_eq' m c, bigSep_W0]
  simp only [share0_0, share0_1, share0_2, share0_3, share0_4, arrAt_in0, arrAt_in1, arrAt_in2, arrAt_in3]
  have hhalf : (((c.tc : Thread nD τ).loc main_v0) ↦{fullShare} V m c main_v0 : sProp 𝕄)
      ⊣⊢ iprop((((c.tc : Thread nD τ).loc main_v0) ↦{fullShare.left} V m c main_v0) ∗ (((c.tc : Thread nD τ).loc main_v0) ↦{fullShare.right} V m c main_v0)) :=
    pointsTo_share (PosShare.mem_left_op_right fullShare)
  have hjoin := hhalf.2
  have hcut := hhalf.1
  -- the rest at the exit contents is the rest as entered: the output array is no part of it
  have hrest : (Pipeline.unscopedRest (Ix := Unit) (Name := ℕ) (U := UR sig nD τ) (Lvl := ℕ) spec0 c (fun b => Wexit m c (Proc.devRef .tc b)) : sProp 𝕄)
      = Pipeline.unscopedRest spec0 c (V m c) := by
    rw [unscopedRest0_eq, unscopedRest0_eq]
    simp only [Wexit_of_ne m c main_arg0 (by decide), Wexit_of_ne m c main_arg1 (by decide), Wexit_of_ne m c main_cst (by decide),
      Wexit_of_ne m c main_v4 (by decide), Wexit_of_ne m c main_cst_0 (by decide), Wexit_of_ne m c main_v5 (by decide)]
  have hrestEnd : (Pipeline.unscopedRest (Ix := Unit) (Name := ℕ) (U := UR sig nD τ) (Lvl := ℕ) spec0 c (fun b => Wend m c (Proc.devRef .tc b)) : sProp 𝕄) = Zend m c := rfl
  iintro ⟨Hk, Hb, ⟨A0, A1, A2, A3, A4⟩, HR⟩
  -- the core's unscoped buffers, whole, at the exit contents
  ihave Hall : (StableHlo.held (c.tc : Thread nD τ) (Pipeline.ucRefs τ sig) (Wexit m c) : sProp 𝕄) $$ [A0 A1 A2 A3 A4 HR]
  · rw [held_uc_eq, hrest, Wexit_out, Wexit_of_ne m c main_v0 (by decide), Wexit_of_ne m c main_v1 (by decide), Wexit_of_ne m c main_v2 (by decide)]
    isplitr [HR]
    · isplitl [A0 A1]
      · iapply hjoin
        isplitl [A0]; · iexact A0
        iexact A1
      isplitl [A2]; · iexact A2
      isplitl [A3]; · iexact A3
      iexact A4
    · iexact HR
  ihave Hbh : iprop(boundary (c.tc : Thread nD τ) ∗ (StableHlo.held (c.tc : Thread nD τ) (Pipeline.ucRefs τ sig) (Wexit m c) : sProp 𝕄)) $$ [Hb Hall]
  · isplitl [Hb]; · iexact Hb
    iexact Hall
  iapply (Pipeline.wp_seqs_then (pcfgs (F := F)) defs₀ Variants.none c (Pipeline.ucRefs τ sig) [] [hostOps1] hsub1 hfresh1 (Wexit m c)) $$ Hbh
  iintro ⟨Hb, Hall⟩
  rw [Pipeline.chain_nil, wp_pure]
  imodintro
  iapply Hk
  iapply (hend m c)
  iexact Hall

/-! ## What the final contents are -/

/-- The result buffer ends at the mean of the output column. -/
theorem Wend_result (c : Dev nD) :
    Wend m c (Proc.devRef .tc main_v5)
      = Host.divf (Host.reduceAdd (outArr m c) (constant S_ .f32 0x00000000#32) Facts₀.reducesTo_S4096x1_S_d0_1 Facts₀.h_S_) (constant S_ .f32 0x45800000#32) := by
  simp only [Wend, List.flatten_cons, List.flatten_nil, List.append_nil, hostOps1]
  after_results
  rw [Wexit_out]

/-- The three operations before the region write neither argument. -/
theorem V_arg0 (c : Dev nD) : V m c main_arg0 = m ((c.tc : Thread nD τ).loc main_arg0) := by
  dsimp only [V, V0]; simp only [List.flatten_cons, List.flatten_nil, List.append_nil, hostOps0]; after_results
theorem V_arg1 (c : Dev nD) : V m c main_arg1 = m ((c.tc : Thread nD τ).loc main_arg1) := by
  dsimp only [V, V0]; simp only [List.flatten_cons, List.flatten_nil, List.append_nil, hostOps0]; after_results

/-! ## The run -/

set_option backward.isDefEq.respectTransparency.types false in
/-- THE RUN. From any memory with zero counters every weakly fair execution of the main function terminates, the result
    buffer at the mean of the output column the region left, the argument arrays unchanged. -/
theorem run_main :
    θ_run defs (onTc (τ := τ) (main (F := F))) ⟨m, fun _ => 0, ρ⟩ (fun r => ∀ c : Dev nD,
      r.2.mem ((c.tc : Thread nD τ).loc main_v5)
        = Host.divf (Host.reduceAdd (outArr m c) (constant S_ .f32 0x00000000#32) Facts₀.reducesTo_S4096x1_S_d0_1 Facts₀.h_S_) (constant S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (pcfgs (F := F)) (fun p => (cfgs p).toPCfg_adm) (dats m) () cellOf_inj 0 winFacts₀0
    (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := Zend m)
    (hX := fun c => by
      rw [Pipeline.unscopedRestP_none]
      iintro ⟨HU, -, -, -, Hp, -⟩; imodintro
      isplitl [Hp]; · iexists _; iexact Hp
      iexact HU)
    (hin := fun c => (show _ ⊢ (Pipeline.ΦA spec0 c : sProp 𝕄) by
      unfold Pipeline.ΦA; iintro ⟨Hp, -, Hr⟩
      isplitl [Hr]; · iexact Hr
      iexact Hp).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ (Finset.univ.filter fun b : Ref sig .tc => ¬ b.isScoped) \ Finset.univ.image (Pipeline.arrRef spec0),
      s.mem ((c.tc : Thread nD τ).loc b) = Wend m c (Proc.devRef .tc b))
    (hY := fun c s' => by
      show iprop((∃ r, prngReg c r) ∗ Pipeline.unscopedRest (Ix := Unit) (Name := ℕ) (U := UR sig nD τ) (Lvl := ℕ) spec0 c (fun b => Wend m c (Proc.devRef .tc b)) ∗ SI s') ⊢ _
      unfold Pipeline.unscopedRest
      iintro ⟨-, HU, HSI⟩
      imodintro
      iapply (pointsTo_read_all ((Finset.univ.filter fun b : Ref sig .tc => ¬ b.isScoped) \ Finset.univ.image (Pipeline.arrRef spec0))
        (fun b => (c.tc : Thread nD τ).loc b) (fun b => Wend m c (Proc.devRef .tc b)) s')
      isplitl [HU] <;> iassumption)
    (hQ := fun s h c => ⟨((h c).2.2 main_v5 (by decide)).trans (Wend_result m c),
      ((h c).2.2 main_arg0 (by decide)).trans ((Wend_keep m c main_arg0 (by decide)).trans ((Wexit_of_ne m c main_arg0 (by decide)).trans (V_arg0 m c))),
      ((h c).2.2 main_arg1 (by decide)).trans ((Wend_keep m c main_arg1 (by decide)).trans ((Wexit_of_ne m c main_arg1 (by decide)).trans (V_arg1 m c)))⟩)

end Cert.Kernel.Hand

end
-- ==== Proof.KI.Dats.lean ====
/-
  The proof data of the one pipelined region, on any float instance.

  The region walks a grid of 8 row blocks by 4 column tiles, the column tile the inner axis: point `t` is row block
  `t / 4`, tile `t % 4`. Two scratch vectors of 512 entries ride from point to point: the running minimum and the running
  maximum of the row block's rows. At a tile-0 point the body first resets them to the two sentinels; at every point it
  folds the tile's row minima / maxima into them; at a tile-3 point it also stores the rows' losses into the output block,
  which the pipeline then writes back. So the scratch contents after point `n` are a recursion on `n` that restarts
  every four points, and the output block after a tile-3 point is a function of the scratch contents there.

  The four input windows are never written by the body: each holds its array's block at every point. Windows 0 and 1
  read ONE array (the features, as row block and as column tile): the array's points-to is held in two halves.
-/
import proofs.«177996_j83717502533695_1_alg».proof.Proof.Gen.KernelIdeal.Launch
import proofs.«177996_j83717502533695_1_alg».proof.Proof.Gen.KernelIdeal.Skeleton
import proofs.«177996_j83717502533695_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the three host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types: the row block of features, the column tile of features,
    the row block's class words, the column tile's class words. -/
abbrev qblk (c : Dev nD) (t : Fin cfg0.N) : Vec F S512x512 .bf16 := iblk m c 0 t
abbrev kblk (c : Dev nD) (t : Fin cfg0.N) : Vec F S1024x512 .bf16 := iblk m c 1 t
abbrev qtblk (c : Dev nD) (t : Fin cfg0.N) : Vec F S512x1 .i32 := iblk m c 2 t
abbrev ktblk (c : Dev nD) (t : Fin cfg0.N) : Vec F S1x1024 .i32 := iblk m c 3 t

/-! ## The scratch vectors from point to point -/

/-- One point's fold: the tile's row minima folded into the running minimum, its row maxima into the running maximum. -/
def foldTile (c : Dev nD) (t : Fin cfg0.N) (s : Vec F S512x1 .f32 × Vec F S512x1 .f32) : Vec F S512x1 .f32 × Vec F S512x1 .f32 :=
  (k0_pay6 (qblk m c t) (kblk m c t) (qtblk m c t) (ktblk m c t) s.1, k0_pay7 (qblk m c t) (kblk m c t) (qtblk m c t) (ktblk m c t) s.2)

/-- The two sentinels a tile-0 point resets the scratch vectors to. -/
def resetPair : Vec F S512x1 .f32 × Vec F S512x1 .f32 := (k0_pay2 (F := F), k0_pay3 (F := F))

/-- The scratch vectors (running minimum, running maximum) after the body at position `n`. -/
def scAt (c : Dev nD) : (n : ℕ) → n < cfg0.N → Vec F S512x1 .f32 × Vec F S512x1 .f32
  | 0, hn => foldTile m c ⟨0, hn⟩ resetPair
  | n + 1, hn => foldTile m c ⟨n + 1, hn⟩ (if (n + 1) % 4 = 0 then resetPair else scAt c n (Nat.lt_of_succ_lt hn))

/-- At a tile-0 point the fold starts from the sentinels. -/
theorem scAt_reset (c : Dev nD) (t : Fin cfg0.N) (h0 : t.val % 4 = 0) :
    scAt m c t.val t.isLt = foldTile m c t resetPair := by
  obtain ⟨n, hn⟩ := t
  cases n with
  | zero => rfl
  | succ n => show foldTile m c _ (if (n + 1) % 4 = 0 then _ else _) = _; rw [if_pos h0]

/-- At any other point it continues from what the point before left. -/
theorem scAt_step (c : Dev nD) (t : Fin cfg0.N) (h0 : ¬ t.val % 4 = 0) :
    scAt m c t.val t.isLt = foldTile m c t (scAt m c (t.val - 1) (Nat.lt_of_le_of_lt (Nat.sub_le _ _) t.isLt)) := by
  obtain ⟨n, hn⟩ := t
  cases n with
  | zero => exact absurd (Nat.zero_mod _) h0
  | succ n => show foldTile m c _ (if (n + 1) % 4 = 0 then _ else _) = _; rw [if_neg h0]; rfl

/-- What a tile-3 point stores into the output block: the rows' losses from the scratch vectors there. -/
def outAt (c : Dev nD) (t : Fin cfg0.N) : Vec F S512x1 .f32 :=
  k0_pay1 (scAt m c t.val t.isLt).2 (scAt m c t.val t.isLt).1

/-! ## The scratch operands and the class invariant -/

/-- The two scratch operands: whole scoped buffers of the kernel's own. -/
abbrev scM0 : Memref sig .tc .vmem S512x1 .f32 := Memref.whole cc0_scratch0
abbrev scM1 : Memref sig .tc .vmem S512x1 .f32 := Memref.whole cc0_scratch1

/-- The class invariant with the scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The region invariant before position `n`: before the first point the class's (the scratch vectors at anything);
    afterwards the two scratch vectors at what the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare ((scAt m c n hn).1) ∗ owns (c : Thread nD τ) scM1 fullShare ((scAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((scAt m c n hn).1) ∗ owns (c : Thread nD τ) scM1 fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scM0 fullShare ((scAt m c (n - 1) (by omega)).1) ∗ owns (c : Thread nD τ) scM1 fullShare ((scAt m c (n - 1) (by omega)).2)) ∗ (∃ r, prngReg c r)) := by
  cases n with
  | zero => exact absurd rfl hz
  | succ n => rfl

/-! ## The proof data -/

/-- The proof data on core `c`: the arrays as the region finds them; after the body each input's buffer at its block
    and the output's at the rows' losses; the invariant `PhiS`; nothing owed; the feature array held in two halves by
    the two windows that read it, the class-word arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch vectors' contents are forgotten. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

end Cert.KernelIdeal.Hand

end
-- ==== Proof.KI.Body.lean ====
/-
  The kernel body run on whole staging buffers, in each of the three control cases a grid point can be in:
  the first tile of a row block (the scratch vectors are reset, then folded), a middle tile (folded), the last tile
  (folded, then the rows' losses stored into the output block).
-/
import proofs.«177996_j83717502533695_1_alg».proof.Proof.KI.Dats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the reset branch, from the grid coordinates: the column tile is the first. -/
abbrev cond0 (i : grid0.Coords) : Prop := (Scalar.cmpi .ne (Scalar.extui (Scalar.cmpi .eq (BitVec.ofNat 32 (i 1).val) 0#32)) 0#32) = 1#1
/-- The condition of the output branch: the column tile is the last. -/
abbrev cond1 (i : grid0.Coords) : Prop := k0_cond2 i = 1#1

/-- The zero offsets of a whole-block access, however spelt. -/
theorem hz2 : (![0, 0] : Fin 2 → Nat) = fun _ => 0 := by funext a; fin_cases a <;> rfl

set_option maxHeartbeats 2000000 in
/-- FIRST TILE of a row block: the scratch vectors, whatever they held, are reset to the sentinels and the tile is folded in; the inputs and the output block are left as found. -/
theorem run_first (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i)
    (x0 : Vec F S512x512 .bf16) (x1 : Vec F S1024x512 .bf16) (x2 : Vec F S512x1 .i32) (x3 : Vec F S1x1024 .i32) (d : Vec F S512x1 .f32) (s0 s1 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d ∗ owns (c : Thread nD τ) arg7 fullShare (k0_pay6 x0 x1 x2 x3 (k0_pay2 (F := F))) ∗ owns (c : Thread nD τ) arg8 fullShare (k0_pay7 x0 x1 x2 x3 (k0_pay3 (F := F)))) -∗ K ⟨⟩))
      ⊢ wp frame (wpE (defs₀ (F := F)) Variants.none c none) E (cc0__corr_loss_kernel i arg2 harg2 arg3 harg3 arg4 harg4 arg5 harg5 arg6 harg6 arg7 harg7 arg8 harg8) K := by
  simp only [cc0__corr_loss_kernel_eq_skeleton]; unfold cc0__corr_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]
  · iexists _; isplitr
    swap; · iexact HS1
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]

set_option maxHeartbeats 2000000 in
/-- A MIDDLE TILE: the tile is folded into the scratch vectors; the inputs and the output block are left as found. -/
theorem run_mid (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i)
    (x0 : Vec F S512x512 .bf16) (x1 : Vec F S1024x512 .bf16) (x2 : Vec F S512x1 .i32) (x3 : Vec F S1x1024 .i32) (d : Vec F S512x1 .f32) (s0 s1 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d ∗ owns (c : Thread nD τ) arg7 fullShare (k0_pay6 x0 x1 x2 x3 s0) ∗ owns (c : Thread nD τ) arg8 fullShare (k0_pay7 x0 x1 x2 x3 s1)) -∗ K ⟨⟩))
      ⊢ wp frame (wpE (defs₀ (F := F)) Variants.none c none) E (cc0__corr_loss_kernel i arg2 harg2 arg3 harg3 arg4 harg4 arg5 harg5 arg6 harg6 arg7 harg7 arg8 harg8) K := by
  simp only [cc0__corr_loss_kernel_eq_skeleton]; unfold cc0__corr_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]
  · iexists _; isplitr
    swap; · iexact HS1
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]

set_option maxHeartbeats 2000000 in
/-- THE LAST TILE of a row block: the tile is folded into the scratch vectors, and the rows' losses from the folded values are stored over the whole output block. -/
theorem run_last (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i)
    (x0 : Vec F S512x512 .bf16) (x1 : Vec F S1024x512 .bf16) (x2 : Vec F S512x1 .i32) (x3 : Vec F S1x1024 .i32) (d : Vec F S512x1 .f32) (s0 s1 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare (k0_pay1 (k0_pay7 x0 x1 x2 x3 s1) (k0_pay6 x0 x1 x2 x3 s0)) ∗ owns (c : Thread nD τ) arg7 fullShare (k0_pay6 x0 x1 x2 x3 s0) ∗ owns (c : Thread nD τ) arg8 fullShare (k0_pay7 x0 x1 x2 x3 s1)) -∗ K ⟨⟩))
      ⊢ wp frame (wpE (defs₀ (F := F)) Variants.none c none) E (cc0__corr_loss_kernel i arg2 harg2 arg3 harg3 arg4 harg4 arg5 harg5 arg6 harg6 arg7 harg7 arg8 harg8) K := by
  simp only [cc0__corr_loss_kernel_eq_skeleton]; unfold cc0__corr_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]
  isplitl [HS0]
  · iexists _; isplitr
    swap; · iexact HS0
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]
  · iexists _; isplitr
    swap; · iexact HS1
    ipureintro
    sl_unfold_words
    rw [View.read_writes_eq_canon _ _ _ (fun y => ⟨_, List.mem_cons_self, View.mem_set_unit_zero hz2 Facts₀.inb_S512x1_S512x1_0_0 y⟩), View.canon_cons_unit_zero hz2]
    simp only [View.readAt_eq_ld, harg2.read_unread, harg3.read_unread, harg4.read_unread, harg5.read_unread, harg6.read_unread, harg7.read_unread, harg8.read_unread,
      View.ld_unit_zero (S := S512x512) hz2, View.ld_unit_zero (S := S1024x512) hz2, View.ld_unit_zero (S := S512x1) hz2, View.ld_unit_zero (S := S1x1024) hz2,
      View.readCov_unit_zero (S := S512x1) _ hz2]

end Cert.KernelIdeal.Hand

end
-- ==== Proof.KI.Oblig.lean ====
/-
  The body obligation of the region: at every grid point the kernel body, handed the invariant before the point and
  the windows' current staging buffers as the pipeline leaves them, runs to the invariant after the point and the
  buffers as the proof data say. Which of the three control cases a point is in is decided by its position modulo 4.
-/
import proofs.«177996_j83717502533695_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions over the grid, and where the output window is idle -/

/-- The reset branch is taken at the points ≡ 0 (mod 4): the first column tile of each row block. -/
theorem hcond0 : ∀ t : Fin cfg0.N, cond0 (grid0.coords t) ↔ t.val % 4 = 0 :=
  (by decide +kernel : ∀ t : Fin grid0.N, cond0 (grid0.coords t) ↔ t.val % 4 = 0)
/-- The output branch is taken at the points ≡ 3 (mod 4): the last column tile of each row block. -/
theorem hcond1 : ∀ t : Fin cfg0.N, cond1 (grid0.coords t) ↔ t.val % 4 = 3 :=
  (by decide +kernel : ∀ t : Fin grid0.N, cond1 (grid0.coords t) ↔ t.val % 4 = 3)

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last tile the output window is idle and its block is not written back. -/
theorem idleAt4 : ∀ t : Fin cfg0.N, ¬cond1 (grid0.coords t) → cfg0.idle 4 (grid0.coords t) = true := by decide +kernel
theorem noFlush4 : ∀ t : Fin cfg0.N, ¬cond1 (grid0.coords t) → (cfg0.win 4).flush t = false := by decide +kernel
/-- At the last tile it is live. -/
theorem liveAt4 : ∀ t : Fin cfg0.N, cond1 (grid0.coords t) → cfg0.idle 4 (grid0.coords t) = false := by decide +kernel

/-! ## The current staging memrefs, as the pipeline passes them -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)

/-! ## The inputs at their blocks -/

/-- Input window 0's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Input window 1's current staging buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Input window 2's current staging buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- Input window 3's current staging buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the point's position modulo 4 says which case it is
    in; the invariant hands the body the scratch vectors at what the point before left (at anything before the first
    point) and takes them back at this point's values; the output buffer is handed back untouched except at a last
    tile, where it is left at the rows' losses; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  rw [show (dats m 0 c).leavesExact 2 t = owns (c : Thread nD τ) (ms2 t) fullShare ((dats m 0 c).after 2 t) from by
    unfold Dat.leavesExact; rw [liveAt2 t], after0_2]
  rw [show (dats m 0 c).leavesExact 3 t = owns (c : Thread nD τ) (ms3 t) fullShare ((dats m 0 c).after 3 t) from by
    unfold Dat.leavesExact; rw [liveAt3 t], after0_3]
  have hN : t.val < 32 := lt_of_lt_of_eq t.isLt (show cfg0.N = 32 from N_0)
  by_cases h0 : t.val % 4 = 0
  · have h1 : ¬ t.val % 4 = 3 := by omega
    have hc0 : cond0 (grid0.coords t) := (hcond0 t).mpr h0
    have hc1 : ¬cond1 (grid0.coords t) := fun h => h1 ((hcond1 t).mp h)
    rw [Dat.leavesExact_idle (dats m 0 c) 4 t (idleAt4 t hc1) (noFlush4 t hc1)]
    rw [scAt_reset m c t h0]; unfold foldTile resetPair; (try dsimp only)
    by_cases hz : t.val = 0
    · rw [PhiS_castSucc m c t, PhiS_zero m c _ _ hz, PhiA0_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩⟩
      iapply (run_first c (grid0.coords t) (ms0 t) (hs0 t) (ms1 t) (hs1 t) (ms2 t) (hs2 t) (ms3 t) (hs3 t) (ms4 t) (hs4 t) scM0 (Memref.isWhole_whole _) scM1 (Memref.isWhole_whole _) hc0 hc1
        (qblk m c t) (kblk m c t) (qtblk m c t) (ktblk m c t) ((dats m 0 c).before 4 t d4) e0 e1 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          · iexact HS1
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_first c (grid0.coords t) (ms0 t) (hs0 t) (ms1 t) (hs1 t) (ms2 t) (hs2 t) (ms3 t) (hs3 t) (ms4 t) (hs4 t) scM0 (Memref.isWhole_whole _) scM1 (Memref.isWhole_whole _) hc0 hc1
        (qblk m c t) (kblk m c t) (qtblk m c t) (ktblk m c t) ((dats m 0 c).before 4 t d4) (scAt m c (t.val - 1) (Nat.lt_of_le_of_lt (Nat.sub_le _ _) t.isLt)).1 (scAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          · iexact HS1
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond0 (grid0.coords t) := fun h => h0 ((hcond0 t).mp h)
    rw [scAt_step m c t h0]; unfold foldTile; (try dsimp only)
    rw [PhiS_castSucc m c t, PhiS_pos m c _ _ hz]
    by_cases h1 : t.val % 4 = 3
    · have hc1 : cond1 (grid0.coords t) := (hcond1 t).mpr h1
      rw [show (dats m 0 c).leavesExact 4 t = owns (c : Thread nD τ) (ms4 t) fullShare ((dats m 0 c).after 4 t) from by
        unfold Dat.leavesExact; rw [liveAt4 t hc1], after0_4]
      unfold outAt; rw [scAt_step m c t h0]; unfold foldTile; (try dsimp only)
      iintro ⟨⟨⟨HS0, HS1⟩, Hg⟩, Ho, ⟨%d0, H0⟩, ⟨%d1, H1⟩, ⟨%d2, H2⟩, ⟨%d3, H3⟩, ⟨%d4, H4⟩⟩
      iapply (run_last c (grid0.coords t) (ms0 t) (hs0 t) (ms1 t) (hs1 t) (ms2 t) (hs2 t) (ms3 t) (hs3 t) (ms4 t) (hs4 t) scM0 (Memref.isWhole_whole _) scM1 (Memref.isWhole_whole _) hc0 hc1
        (qblk m c t) (kblk m c t) (qtblk m c t) (ktblk m c t) ((dats m 0 c).before 4 t d4) (scAt m c (t.val - 1) (Nat.lt_of_le_of_lt (Nat.sub_le _ _) t.isLt)).1 (scAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          · iexact HS1
        iexact Hg
      isplitl [Ho]; · iexact Ho
      isplitl [H0]; · iexact H0
      isplitl [H1]; · iexact H1
      isplitl [H2]; · iexact H2
      isplitl [H3]; · iexact H3
      iexact H4
    · have hc1 : ¬cond1 (grid0.coords t) := fun h => h1 ((hcond1 t).mp h)
      rw [Dat.leavesExact_idle (dats m 0 c) 4 t (idleAt4 t hc1) (noFlush4 t hc1)]
      iintro ⟨⟨⟨HS0, HS1⟩, Hg⟩, Ho, ⟨%d0, H0⟩, ⟨%d1, H1⟩, ⟨%d2, H2⟩, ⟨%d3, H3⟩, ⟨%d4, H4⟩⟩
      iapply (run_mid c (grid0.coords t) (ms0 t) (hs0 t) (ms1 t) (hs1 t) (ms2 t) (hs2 t) (ms3 t) (hs3 t) (ms4 t) (hs4 t) scM0 (Memref.isWhole_whole _) scM1 (Memref.isWhole_whole _) hc0 hc1
        (qblk m c t) (kblk m c t) (qtblk m c t) (ktblk m c t) ((dats m 0 c).before 4 t d4) (scAt m c (t.val - 1) (Nat.lt_of_le_of_lt (Nat.sub_le _ _) t.isLt)).1 (scAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          · iexact HS1
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.OutArr.lean ====
/-
  The output array as the region leaves it, named once for the module that runs the program and the one that reads its value.
-/
import proofs.«177996_j83717502533695_1_alg».proof.Proof.KI.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The output array (4096 rows, one column) after every write-back of the region. -/
abbrev outArr (c : Dev nD) : Vec F S4096x1 .f32 := (dats m 0 c).arrAt 4 cfg0.N

end Cert.KernelIdeal.Hand

end
-- ==== Proof.KI.Launch.lean ====
/-
  The launch: the whole program run from any memory.

  The main function is three host operations (the features narrowed, the class words reshaped twice), the pipelined
  region, and four host operations (the output column summed from zero and divided by 4096). The region's five windows
  sit on four arrays: the narrowed features are read through two windows, so that array's points-to enters the region
  split in two halves; the other arrays enter whole. The host operations after the region read the output array and
  write buffers no window touches. At the end the result buffer holds the mean of the output column as the region
  left it, and the two argument arrays hold what they held at launch.
-/
import proofs.«177996_j83717502533695_1_alg».proof.Proof.KI.Oblig
import proofs.«177996_j83717502533695_1_alg».proof.Proof.KI.OutArr

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.BI (bigSepL bigSep_eq_bigSepL_of_eq)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The main function reduces to the region continued by the four later operations, entered at the contents the three
    earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The arrays at the region's entry -/

/-- The buffers behind the windows' arrays: four, the narrowed features counted once. -/
theorem arrRefs_eq : Finset.univ.image (Pipeline.arrRef spec0) = ([main_v0, main_v1, main_v2, main_v3] : List (Ref sig .tc)).toFinset := by decide

/-- The windows' holdings, each array a whole buffer, at the windows' shares. -/
theorem arrays_eq' (c : Dev nD) (G : (w : Fin cfg0.W) → Buf (Elt F) ((cfg0.win w).arr.view.loc (c.tc : Thread nD τ))) :
    ((dats m 0 c).arrays G : sProp 𝕄)
      = bigSep Finset.univ fun w : Fin 5 => (((c.tc : Thread nD τ).loc (Pipeline.arrRef spec0 w)) ↦{(dats m 0 c).share w} G w : sProp 𝕄) := by
  unfold Dat.arrays
  exact bigSep_congr fun w _ => by rw [(arr_whole0 w).set_eq_univ]

/-- The four buffers behind the windows' arrays, one by one. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v0) ↦{fullShare} W main_v0) ∗ (((c.tc : Thread nD τ).loc main_v1) ↦{fullShare} W main_v1)
          ∗ (((c.tc : Thread nD τ).loc main_v2) ↦{fullShare} W main_v2) ∗ (((c.tc : Thread nD τ).loc main_v3) ↦{fullShare} W main_v3)) :=
  bigSep_eq_bigSepL_of_eq [main_v0, main_v1, main_v2, main_v3] arrRefs_eq (by decide) _

/-- THE SPLIT. The four buffers behind the windows' arrays, each whole, are the five windows' holdings at the region's
    entry: the narrowed features in two halves, one per window that reads them. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrays_eq' m c, bigSep_W0, arrBufs0_eq]
  simp only [share0_0, share0_1, share0_2, share0_3, share0_4]
  rw [show (dats m 0 c).arrAt 0 0 = (dats m 0 c).A 0 from rfl, show (dats m 0 c).arrAt 1 0 = (dats m 0 c).A 1 from rfl,
    show (dats m 0 c).arrAt 2 0 = (dats m 0 c).A 2 from rfl, show (dats m 0 c).arrAt 3 0 = (dats m 0 c).A 3 from rfl,
    show (dats m 0 c).arrAt 4 0 = (dats m 0 c).A 4 from rfl, A_eq, A_eq, A_eq, A_eq, A_eq]
  iintro ⟨H0, H1, H2, H3⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  iexact H3

/-! ## After the region -/

/-- The core's buffer contents at the region's exit: the output array as the region left it, every other buffer as it
    was when the region was entered. -/
def Wexit (c : Dev nD) : Valuation τ sig (Elt F) :=
  Function.update (V0 m c) (Proc.devRef .tc main_v3) (outArr m c)

theorem Wexit_out (c : Dev nD) : Wexit m c (Proc.devRef .tc main_v3) = outArr m c :=
  Function.update_self _ _ _

theorem Wexit_of_ne (c : Dev nD) (b : Ref sig .tc) (hb : b ≠ main_v3) : Wexit m c (Proc.devRef .tc b) = V m c b :=
  Function.update_of_ne (StableHlo.devRef_ne_of_ne hb) _ _

/-- The contents after the four later operations. -/
abbrev Wend (c : Dev nD) : Valuation τ sig (Elt F) := StableHlo.after (List.flatten [hostOps1]) (Wexit m c)

/-- The four later operations write none of the buffers a window stages, nor the arguments. -/
theorem Wend_keep (c : Dev nD) (b : Ref sig .tc) (hb : b ∉ [main_cst, main_v4, main_cst_0, main_v5]) :
    Wend m c (Proc.devRef .tc b) = Wexit m c (Proc.devRef .tc b) := by
  refine StableHlo.after_of_writes_sub (W := [main_cst, main_v4, main_cst_0, main_v5]) _ _ ?_ hb
  simp only [List.flatten_cons, List.flatten_nil, List.append_nil, hostOps1, List.Forall, StableHlo.nullary_writes, StableHlo.binary_writes]
  refine ⟨?_, ?_, ?_, ?_⟩ <;> simp

/-- The input arrays are never written: they end as they were found. -/
theorem arrAt_in0 (c : Dev nD) (n : ℕ) : (dats m 0 c).arrAt 0 n = V m c main_v0 := ((dats m 0 c).arrAt_in 0 rfl n).trans (A_eq m c 0)
theorem arrAt_in1 (c : Dev nD) (n : ℕ) : (dats m 0 c).arrAt 1 n = V m c main_v0 := ((dats m 0 c).arrAt_in 1 rfl n).trans (A_eq m c 1)
theorem arrAt_in2 (c : Dev nD) (n : ℕ) : (dats m 0 c).arrAt 2 n = V m c main_v1 := ((dats m 0 c).arrAt_in 2 rfl n).trans (A_eq m c 2)
theorem arrAt_in3 (c : Dev nD) (n : ℕ) : (dats m 0 c).arrAt 3 n = V m c main_v2 := ((dats m 0 c).arrAt_in 3 rfl n).trans (A_eq m c 3)

/-- The buffers no window stages, at the end. -/
abbrev Zend (c : Dev nD) : sProp 𝕄 :=
  Pipeline.unscopedRest (Ix := Unit) (Name := ℕ) (U := UR sig nD τ) (Lvl := ℕ) spec0 c (fun b => Wend m c (Proc.devRef .tc b))

/-- The core's unscoped buffers held at a valuation: the four buffers behind the windows' arrays, and the rest. -/
theorem held_uc_eq (c : Dev nD) (W : Valuation τ sig (Elt F)) :
    (StableHlo.held (c.tc : Thread nD τ) (Pipeline.ucRefs τ sig) W : sProp 𝕄)
      = iprop(((((c.tc : Thread nD τ).loc main_v0) ↦{fullShare} W (Proc.devRef .tc main_v0)) ∗ (((c.tc : Thread nD τ).loc main_v1) ↦{fullShare} W (Proc.devRef .tc main_v1))
          ∗ (((c.tc : Thread nD τ).loc main_v2) ↦{fullShare} W (Proc.devRef .tc main_v2)) ∗ (((c.tc : Thread nD τ).loc main_v3) ↦{fullShare} W (Proc.devRef .tc main_v3)))
          ∗ Pipeline.unscopedRest (Ix := Unit) (Name := ℕ) (U := UR sig nD τ) (Lvl := ℕ) spec0 c (fun b => W (Proc.devRef .tc b))) := by
  rw [← Pipeline.unscopedBufs_held, Pipeline.unscopedBufs_split₀ cfgs 0 winFacts₀0.arr_unscoped c, arrBufs0_eq]

theorem hsub1 : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem hfresh1 : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- After the lines the core's unscoped buffers are again the windows' holdings, unchanged, and the rest at what the
    lines leave: the lines write no buffer a window stages. -/
theorem hend (c : Dev nD) :
    (StableHlo.held (c.tc : Thread nD τ) (Pipeline.ucRefs τ sig) (Wend m c) : sProp 𝕄)
      ⊢ iprop(((((c.tc : Thread nD τ).loc main_v0) ↦{fullShare.left} V m c main_v0) ∗ (((c.tc : Thread nD τ).loc main_v0) ↦{fullShare.right} V m c main_v0)
            ∗ (((c.tc : Thread nD τ).loc main_v1) ↦{fullShare} V m c main_v1) ∗ (((c.tc : Thread nD τ).loc main_v2) ↦{fullShare} V m c main_v2)
            ∗ (((c.tc : Thread nD τ).loc main_v3) ↦{fullShare} outArr m c)) ∗ Zend m c) := by
  rw [held_uc_eq, Wend_keep m c main_v0 (by decide), Wend_keep m c main_v1 (by decide), Wend_keep m c main_v2 (by decide), Wend_keep m c main_v3 (by decide),
    Wexit_out, Wexit_of_ne m c main_v0 (by decide), Wexit_of_ne m c main_v1 (by decide), Wexit_of_ne m c main_v2 (by decide)]
  have hhalf : (((c.tc : Thread nD τ).loc main_v0) ↦{fullShare} V m c main_v0 : sProp 𝕄)
      ⊣⊢ iprop((((c.tc : Thread nD τ).loc main_v0) ↦{fullShare.left} V m c main_v0) ∗ (((c.tc : Thread nD τ).loc main_v0) ↦{fullShare.right} V m c main_v0)) :=
    pointsTo_share (PosShare.mem_left_op_right fullShare)
  have hcut := hhalf.1
  iintro ⟨⟨B0, B1, B2, B3⟩, BR⟩
  ihave B0' := hcut $$ B0
  icases B0' with ⟨B0a, B0b⟩
  isplitr [BR]
  · isplitl [B0a]; · iexact B0a
    isplitl [B0b]; · iexact B0b
    isplitl [B1]; · iexact B1
    isplitl [B2]; · iexact B2
    iexact B3
  · iexact BR

set_option backward.isDefEq.respectTransparency.types false in
/-- THE LINES AFTER THE REGION. From the region's exit — the windows' holdings at their final contents, the other
    unscoped buffers as entered — the two halves of the narrowed features are put together again, the four operations
    run within the core's unscoped buffers, and the holdings are handed back unchanged, the other buffers at what the
    operations leave. -/
theorem htail (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c.tc : Thread nD τ) none) Set.univ
          (Pipeline.chain [StableHlo.seq hostOps1]) Q' := by
  rw [arrays_eq' m c, bigSep_W0]
  simp only [share0_0, share0_1, share0_2, share0_3, share0_4, arrAt_in0, arrAt_in1, arrAt_in2, arrAt_in3]
  have hhalf : (((c.tc : Thread nD τ).loc main_v0) ↦{fullShare} V m c main_v0 : sProp 𝕄)
      ⊣⊢ iprop((((c.tc : Thread nD τ).loc main_v0) ↦{fullShare.left} V m c main_v0) ∗ (((c.tc : Thread nD τ).loc main_v0) ↦{fullShare.right} V m c main_v0)) :=
    pointsTo_share (PosShare.mem_left_op_right fullShare)
  have hjoin := hhalf.2
  have hcut := hhalf.1
  -- the rest at the exit contents is the rest as entered: the output array is no part of it
  have hrest : (Pipeline.unscopedRest (Ix := Unit) (Name := ℕ) (U := UR sig nD τ) (Lvl := ℕ) spec0 c (fun b => Wexit m c (Proc.devRef .tc b)) : sProp 𝕄)
      = Pipeline.unscopedRest spec0 c (V m c) := by
    rw [unscopedRest0_eq, unscopedRest0_eq]
    simp only [Wexit_of_ne m c main_arg0 (by decide), Wexit_of_ne m c main_arg1 (by decide), Wexit_of_ne m c main_cst (by decide),
      Wexit_of_ne m c main_v4 (by decide), Wexit_of_ne m c main_cst_0 (by decide), Wexit_of_ne m c main_v5 (by decide)]
  have hrestEnd : (Pipeline.unscopedRest (Ix := Unit) (Name := ℕ) (U := UR sig nD τ) (Lvl := ℕ) spec0 c (fun b => Wend m c (Proc.devRef .tc b)) : sProp 𝕄) = Zend m c := rfl
  iintro ⟨Hk, Hb, ⟨A0, A1, A2, A3, A4⟩, HR⟩
  -- the core's unscoped buffers, whole, at the exit contents
  ihave Hall : (StableHlo.held (c.tc : Thread nD τ) (Pipeline.ucRefs τ sig) (Wexit m c) : sProp 𝕄) $$ [A0 A1 A2 A3 A4 HR]
  · rw [held_uc_eq, hrest, Wexit_out, Wexit_of_ne m c main_v0 (by decide), Wexit_of_ne m c main_v1 (by decide), Wexit_of_ne m c main_v2 (by decide)]
    isplitr [HR]
    · isplitl [A0 A1]
      · iapply hjoin
        isplitl [A0]; · iexact A0
        iexact A1
      isplitl [A2]; · iexact A2
      isplitl [A3]; · iexact A3
      iexact A4
    · iexact HR
  ihave Hbh : iprop(boundary (c.tc : Thread nD τ) ∗ (StableHlo.held (c.tc : Thread nD τ) (Pipeline.ucRefs τ sig) (Wexit m c) : sProp 𝕄)) $$ [Hb Hall]
  · isplitl [Hb]; · iexact Hb
    iexact Hall
  iapply (Pipeline.wp_seqs_then (pcfgs (F := F)) defs₀ Variants.none c (Pipeline.ucRefs τ sig) [] [hostOps1] hsub1 hfresh1 (Wexit m c)) $$ Hbh
  iintro ⟨Hb, Hall⟩
  rw [Pipeline.chain_nil, wp_pure]
  imodintro
  iapply Hk
  iapply (hend m c)
  iexact Hall

/-! ## What the final contents are -/

/-- The result buffer ends at the mean of the output column. -/
theorem Wend_result (c : Dev nD) :
    Wend m c (Proc.devRef .tc main_v5)
      = Host.divf (Host.reduceAdd (outArr m c) (constant S_ .f32 0x00000000#32) Facts₀.reducesTo_S4096x1_S_d0_1 Facts₀.h_S_) (constant S_ .f32 0x45800000#32) := by
  simp only [Wend, List.flatten_cons, List.flatten_nil, List.append_nil, hostOps1]
  after_results
  rw [Wexit_out]

/-- The three operations before the region write neither argument. -/
theorem V_arg0 (c : Dev nD) : V m c main_arg0 = m ((c.tc : Thread nD τ).loc main_arg0) := by
  dsimp only [V, V0]; simp only [List.flatten_cons, List.flatten_nil, List.append_nil, hostOps0]; after_results
theorem V_arg1 (c : Dev nD) : V m c main_arg1 = m ((c.tc : Thread nD τ).loc main_arg1) := by
  dsimp only [V, V0]; simp only [List.flatten_cons, List.flatten_nil, List.append_nil, hostOps0]; after_results

/-! ## The run -/

set_option backward.isDefEq.respectTransparency.types false in
/-- THE RUN. From any memory with zero counters every weakly fair execution of the main function terminates, the result
    buffer at the mean of the output column the region left, the argument arrays unchanged. -/
theorem run_main :
    θ_run defs (onTc (τ := τ) (main (F := F))) ⟨m, fun _ => 0, ρ⟩ (fun r => ∀ c : Dev nD,
      r.2.mem ((c.tc : Thread nD τ).loc main_v5)
        = Host.divf (Host.reduceAdd (outArr m c) (constant S_ .f32 0x00000000#32) Facts₀.reducesTo_S4096x1_S_d0_1 Facts₀.h_S_) (constant S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (pcfgs (F := F)) (fun p => (cfgs p).toPCfg_adm) (dats m) () cellOf_inj 0 winFacts₀0
    (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := Zend m)
    (hX := fun c => by
      rw [Pipeline.unscopedRestP_none]
      iintro ⟨HU, -, -, -, Hp, -⟩; imodintro
      isplitl [Hp]; · iexists _; iexact Hp
      iexact HU)
    (hin := fun c => (show _ ⊢ (Pipeline.ΦA spec0 c : sProp 𝕄) by
      unfold Pipeline.ΦA; iintro ⟨Hp, -, Hr⟩
      isplitl [Hr]; · iexact Hr
      iexact Hp).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ (Finset.univ.filter fun b : Ref sig .tc => ¬ b.isScoped) \ Finset.univ.image (Pipeline.arrRef spec0),
      s.mem ((c.tc : Thread nD τ).loc b) = Wend m c (Proc.devRef .tc b))
    (hY := fun c s' => by
      show iprop((∃ r, prngReg c r) ∗ Pipeline.unscopedRest (Ix := Unit) (Name := ℕ) (U := UR sig nD τ) (Lvl := ℕ) spec0 c (fun b => Wend m c (Proc.devRef .tc b)) ∗ SI s') ⊢ _
      unfold Pipeline.unscopedRest
      iintro ⟨-, HU, HSI⟩
      imodintro
      iapply (pointsTo_read_all ((Finset.univ.filter fun b : Ref sig .tc => ¬ b.isScoped) \ Finset.univ.image (Pipeline.arrRef spec0))
        (fun b => (c.tc : Thread nD τ).loc b) (fun b => Wend m c (Proc.devRef .tc b)) s')
      isplitl [HU] <;> iassumption)
    (hQ := fun s h c => ⟨((h c).2.2 main_v5 (by decide)).trans (Wend_result m c),
      ((h c).2.2 main_arg0 (by decide)).trans ((Wend_keep m c main_arg0 (by decide)).trans ((Wexit_of_ne m c main_arg0 (by decide)).trans (V_arg0 m c))),
      ((h c).2.2 main_arg1 (by decide)).trans ((Wend_keep m c main_arg1 (by decide)).trans ((Wexit_of_ne m c main_arg1 (by decide)).trans (V_arg1 m c)))⟩)

end Cert.KernelIdeal.Hand

end
-- ==== Proof.LossSpec.lean ====
/-
  The mathematics both programs compute, on the extended reals.

  For a feature matrix `feat` (4096 rows of 512 entries) and a class word per row, row `r` has, against every row `j`,
  the correlation `corr r j = ∑ k, feat r k * feat j k`. Over the rows of its own class it takes the least
  correlation, over the others the greatest; entries of the wrong kind are replaced by the largest finite single
  (`big`) resp. its negative (`nbig`), so that they never win. The row's loss is `max (an - ap + 40) 0`.

  One program takes the least / greatest over all 4096 columns at once, from `⊤` / `⊥`. The other walks four tiles of
  1024 columns and folds each tile's least / greatest into a running value that starts at `big` / `nbig`.
  The running minimum is therefore `min big` of the true one. The two losses still agree: a true minimum above `big`
  means every column is of the row's class, so the maximum side is `nbig` on both, and both losses are `0`.
-/
import Idealize.ShloMosaic.PureOps.Ideal
import Idealize.ShloMosaic.Lib.ValueIdx

noncomputable section

open scoped BigOperators

namespace Cert.LossSpec

open Idealize.ShloMosaic Idealize.ShloMosaic.ValueIdx

/-- The largest finite single-precision number, `2^128 - 2^104`. -/
def big : EReal := Ideal.ofBits .f32 0x7F7FFFFF#32
/-- Its negative, spelt as its own pattern. -/
def nbig : EReal := Ideal.ofBits .f32 0xFF7FFFFF#32
/-- The margin, `40`. -/
def margin : EReal := Ideal.ofBits .f32 0x42200000#32

theorem big_eq : big = ((340282346638528859811704183484516925440 : ℝ) : EReal) := by
  simp [big, Ideal.ofBits, Ideal.ieee, -EReal.coe_mul]; norm_num

/-- The negative sentinel as a real: exponent field 254, full fraction, sign set. -/
private theorem nbig_eq_coe : nbig = ((-340282346638528859811704183484516925440 : ℝ) : EReal) := by
  simp [nbig, Ideal.ofBits, Ideal.ieee, -EReal.coe_mul]; norm_num

theorem nbig_eq : nbig = -big := by
  rw [nbig_eq_coe, big_eq, ← EReal.coe_neg]

theorem margin_eq : margin = ((40 : ℝ) : EReal) := by
  simp [margin, Ideal.ofBits, Ideal.ieee, -EReal.coe_mul]; norm_num

theorem ofBits_zero : Ideal.ofBits .f32 0x00000000#32 = (0 : EReal) := by
  simp [Ideal.ofBits, Ideal.ieee]

theorem ofBits_posInf : Ideal.ofBits .f32 0x7F800000#32 = (⊤ : EReal) := by
  simp [Ideal.ofBits, Ideal.ieee]

theorem ofBits_negInf : Ideal.ofBits .f32 0xFF800000#32 = (⊥ : EReal) := by
  simp [Ideal.ofBits, Ideal.ieee]

/-- Column `b` of tile `t`: column `1024 * t + b` of the whole. -/
def tileCol (t : Fin 4) (b : Fin 1024) : Fin 4096 := ⟨1024 * t.val + b.val, by omega⟩

/-- The least value of `f` over tile `t`, from `⊤`. -/
def tileMin (f : Fin 4096 → EReal) (t : Fin 4) : EReal := Finset.univ.fold min ⊤ (fun b : Fin 1024 => f (tileCol t b))
/-- The greatest value of `g` over tile `t`, from `⊥`. -/
def tileMax (g : Fin 4096 → EReal) (t : Fin 4) : EReal := Finset.univ.fold max ⊥ (fun b : Fin 1024 => g (tileCol t b))

/-- The running minimum after the four tiles, started at `big`. -/
def runMin (f : Fin 4096 → EReal) : EReal := min (min (min (min big (tileMin f 0)) (tileMin f 1)) (tileMin f 2)) (tileMin f 3)
/-- The running maximum after the four tiles, started at `nbig`. -/
def runMax (g : Fin 4096 → EReal) : EReal := max (max (max (max nbig (tileMax g 0)) (tileMax g 1)) (tileMax g 2)) (tileMax g 3)

/-- Every column lies in one of the four tiles: column `j` is column `j % 1024` of tile `j / 1024`. -/
private theorem tileCol_surj (j : Fin 4096) : ∃ t b, tileCol t b = j :=
  ⟨⟨j.val / 1024, by omega⟩, ⟨j.val % 1024, by omega⟩, by ext; simp only [tileCol]; omega⟩

/-- A property of all columns is a property of all columns of all four tiles. -/
private theorem forall_tiles {P : Fin 4096 → Prop} : (∀ t b, P (tileCol t b)) ↔ ∀ j, P j := by
  constructor
  · intro h j
    obtain ⟨t, b, rfl⟩ := tileCol_surj j
    exact h t b
  · intro h t b
    exact h _

/-- A lower bound of a tile's minimum is a lower bound of each of its columns. -/
private theorem le_tileMin_iff (f : Fin 4096 → EReal) (t : Fin 4) (c : EReal) :
    c ≤ tileMin f t ↔ ∀ b, c ≤ f (tileCol t b) := by
  simp [tileMin, Finset.le_fold_min]

/-- An upper bound of a tile's maximum is an upper bound of each of its columns. -/
private theorem tileMax_le_iff (g : Fin 4096 → EReal) (t : Fin 4) (c : EReal) :
    tileMax g t ≤ c ↔ ∀ b, g (tileCol t b) ≤ c := by
  simp [tileMax, Finset.fold_max_le]

/-- A property of the four tiles, one by one. -/
private theorem forall_fin4 {P : Fin 4 → Prop} : (∀ t, P t) ↔ P 0 ∧ P 1 ∧ P 2 ∧ P 3 := by
  constructor
  · intro h; exact ⟨h 0, h 1, h 2, h 3⟩
  · rintro ⟨h0, h1, h2, h3⟩ t
    fin_cases t <;> assumption

/-- A lower bound of the running minimum is a lower bound of `big` and of every column. -/
private theorem le_runMin_iff (f : Fin 4096 → EReal) (c : EReal) :
    c ≤ runMin f ↔ c ≤ big ∧ ∀ j, c ≤ f j := by
  rw [← forall_tiles (P := fun j => c ≤ f j), forall_fin4]
  simp only [runMin, le_min_iff, le_tileMin_iff]
  tauto

/-- An upper bound of the running maximum is an upper bound of `nbig` and of every column. -/
private theorem runMax_le_iff (g : Fin 4096 → EReal) (c : EReal) :
    runMax g ≤ c ↔ nbig ≤ c ∧ ∀ j, g j ≤ c := by
  rw [← forall_tiles (P := fun j => g j ≤ c), forall_fin4]
  simp only [runMax, max_le_iff, tileMax_le_iff]
  tauto

/-- The running minimum is the whole-row minimum capped at `big`: both have the same lower bounds. -/
private theorem runMin_eq (f : Fin 4096 → EReal) : runMin f = min big (Finset.univ.fold min ⊤ f) := by
  refine eq_of_forall_le_iff fun c => ?_
  rw [le_runMin_iff, le_min_iff, Finset.le_fold_min]
  simp

/-- The running maximum is the whole-row maximum raised to `nbig`: both have the same upper bounds. -/
private theorem runMax_eq (g : Fin 4096 → EReal) : runMax g = max nbig (Finset.univ.fold max ⊥ g) := by
  refine eq_of_forall_ge_iff fun c => ?_
  rw [runMax_le_iff, max_le_iff, Finset.fold_max_le]
  simp

/-- With both sentinels in place the loss argument is negative: `-big - big + 40 ≤ 0` in the reals. -/
private theorem sentinel_loss_nonpos : nbig - big + margin ≤ 0 := by
  rw [nbig_eq_coe, big_eq, margin_eq, ← EReal.coe_sub, ← EReal.coe_add, ← EReal.coe_zero, EReal.coe_le_coe_iff]
  norm_num

/-- THE LAW THAT JOINS THE TWO SIDES. If at every column one of the two entries is the sentinel of its side, and some
    column has the maximum side's sentinel, the loss from the running values is the loss from the whole-row ones. -/
theorem loss_tiles_eq (f g : Fin 4096 → EReal) (hfg : ∀ j, f j = big ∨ g j = nbig) (hg : ∃ j, g j = nbig) :
    max (runMax g - runMin f + margin) 0
      = max (Finset.univ.fold max ⊥ g - Finset.univ.fold min ⊤ f + margin) 0 := by
  rw [runMin_eq, runMax_eq]
  set A := Finset.univ.fold min ⊤ f with hA
  set N := Finset.univ.fold max ⊥ g with hN
  -- some column carries `nbig`, so the whole-row maximum is at least `nbig` and the raise does nothing
  have hN_ge : nbig ≤ N := by
    obtain ⟨j, hj⟩ := hg
    rw [hN, Finset.le_fold_max]
    exact Or.inr ⟨j, Finset.mem_univ _, hj.ge⟩
  rw [max_eq_right hN_ge]
  rcases le_or_gt A big with hAb | hAb
  · -- the whole-row minimum is at most `big`: the cap does nothing
    rw [min_eq_right hAb]
  · -- the minimum exceeds `big`: no column of `f` is `big`, so every column of `g` is `nbig`
    rw [min_eq_left hAb.le]
    have hfA : ∀ j, A ≤ f j := by
      intro j
      have := (Finset.le_fold_min (s := Finset.univ) (f := f) (b := ⊤) A).1 le_rfl
      exact this.2 j (Finset.mem_univ _)
    have hgn : ∀ j, g j = nbig := by
      intro j
      rcases hfg j with h | h
      · exact absurd (h ▸ hfA j) (not_le.2 hAb)
      · exact h
    have hN_le : N ≤ nbig := by
      rw [hN, Finset.fold_max_le]
      exact ⟨bot_le, fun j _ => (hgn j).le⟩
    have hNe : N = nbig := le_antisymm hN_le hN_ge
    rw [hNe]
    -- both loss arguments are at most `nbig - big + 40 ≤ 0` (subtraction is antitone in the subtrahend), so both losses are `0`
    have h1 : nbig - big + margin ≤ 0 := sentinel_loss_nonpos
    have h2 : nbig - A + margin ≤ 0 :=
      le_trans (add_le_add (EReal.sub_le_sub le_rfl hAb.le) le_rfl) h1
    rw [max_eq_right h1, max_eq_right h2]

/-! ## The two entry tables of a row -/

/-- The correlation of rows `r` and `j`. -/
def corr (feat : FVec Ideal ⟨2, ![4096, 512]⟩ .f32) (r j : Fin 4096) : EReal :=
  ∑ k : Fin 512, feat (ix2 r k) * feat (ix2 j k)

/-- Row `r`'s entries on the minimum side: the correlation where the classes agree, `big` elsewhere. -/
def posTab (feat : FVec Ideal ⟨2, ![4096, 512]⟩ .f32) (tg : IVec ⟨1, ![4096]⟩ 32) (r j : Fin 4096) : EReal :=
  if tg (ix1 r) = tg (ix1 j) then corr feat r j else big
/-- Row `r`'s entries on the maximum side: `nbig` where the classes agree, the correlation elsewhere. -/
def negTab (feat : FVec Ideal ⟨2, ![4096, 512]⟩ .f32) (tg : IVec ⟨1, ![4096]⟩ 32) (r j : Fin 4096) : EReal :=
  if tg (ix1 r) = tg (ix1 j) then nbig else corr feat r j

/-- The row's loss as the whole-row program computes it. -/
def rowLoss (feat : FVec Ideal ⟨2, ![4096, 512]⟩ .f32) (tg : IVec ⟨1, ![4096]⟩ 32) (r : Fin 4096) : EReal :=
  max (Finset.univ.fold max ⊥ (negTab feat tg r) - Finset.univ.fold min ⊤ (posTab feat tg r) + margin) 0

/-- The row's loss as the tiled program computes it. -/
def rowLossTiled (feat : FVec Ideal ⟨2, ![4096, 512]⟩ .f32) (tg : IVec ⟨1, ![4096]⟩ 32) (r : Fin 4096) : EReal :=
  max (runMax (negTab feat tg r) - runMin (posTab feat tg r) + margin) 0

/-- The two losses of a row agree. -/
theorem rowLossTiled_eq (feat : FVec Ideal ⟨2, ![4096, 512]⟩ .f32) (tg : IVec ⟨1, ![4096]⟩ 32) (r : Fin 4096) :
    rowLossTiled feat tg r = rowLoss feat tg r := by
  unfold rowLossTiled rowLoss
  refine loss_tiles_eq _ _ (fun j => ?_) ⟨r, by simp [negTab]⟩
  -- at each column the class words agree (the maximum side holds `nbig`) or differ (the minimum side holds `big`)
  by_cases h : tg (ix1 r) = tg (ix1 j)
  · exact Or.inr (by simp [negTab, h])
  · exact Or.inl (by simp [posTab, h])

/-- The mean of the rows' losses, as both programs finish: the sum from the pattern `0.0`, divided by the pattern `4096.0`. -/
def meanLoss (feat : FVec Ideal ⟨2, ![4096, 512]⟩ .f32) (tg : IVec ⟨1, ![4096]⟩ 32) : EReal :=
  Ideal.div (Ideal.ofBits .f32 0x00000000#32 + ∑ r : Fin 4096, rowLoss feat tg r) (Ideal.ofBits .f32 0x45800000#32)

end Cert.LossSpec

end
-- ==== Proof.KI.Payload.lean ====
/-
  The kernel body's arithmetic, read at a row of the block.

  At one grid point the body holds a block of 512 query rows and a tile of 1024 key rows (512 features each), the
  512 query class words and the 1024 key class words. For query row `a` it forms the 1024 correlations with the tile's
  rows, keeps them where the class words agree (the sentinel elsewhere) for the minimum side, the other way round for
  the maximum side, reduces along the tile from +∞ / −∞, and folds the result into the running value of the row.
  The loss of a row is `max (an - ap + 40) 0` of its two running values.
-/
import proofs.«177996_j83717502533695_1_alg».proof.Proof.Gen.KernelIdeal.Skeleton
import proofs.«177996_j83717502533695_1_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayVal

open Cert.KernelIdeal Cert.KernelIdeal.Gen
open Idealize.ShloMosaic Idealize.ShloMosaic.TcCoe Idealize.ShloMosaic.ValueIdx
open Cert.LossSpec

/-- The reset value of the running minimum is the largest finite single, in every row. -/
theorem pay2_apply (a : Fin 512) : k0_pay2 (F := Ideal) (ix2 a (0 : Fin 1)) = big := by
  unfold k0_pay2
  rw [shapeCast_self]
  rfl

/-- The reset value of the running maximum is its negative, in every row. -/
theorem pay3_apply (a : Fin 512) : k0_pay3 (F := Ideal) (ix2 a (0 : Fin 1)) = nbig := by
  unfold k0_pay3
  rw [shapeCast_self]
  rfl

/-! ## Layout operations at an index: a column kept as a unit axis -/

section Layout
variable {α : Type}

/-- An `[a]` array cast to the column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- Row `a` of the block with the tile's coordinate `b` put back on the reduced axis is the entry `(a, b)`. -/
private theorem lift_row (a : Fin 512) (b : Fin 1024) :
    reduces_S512x1024_S512.lift (ix1 a) b = ix2 a b := by
  funext c
  apply Fin.ext
  show Shape.Reduces.liftVal reduces_S512x1024_S512 (ix1 a) b.val c = (ix2 a b c).val
  unfold Shape.Reduces.liftVal
  match c with
  | ⟨0, _⟩ => rfl
  | ⟨1, _⟩ => rfl

/-- A lane minimum over one axis, at the extended reals: the fold of `min` from the accumulator's value over that axis's coordinates. -/
private theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A select on "the two words are equal" is the `if` on their equality. -/
private theorem select_cmpi_eq {β : Type} (x y : BitVec 32) (A B : β) :
    Scalar.select (IntOp.cmpi .eq x y) A B = if x = y then A else B := by
  unfold Scalar.select IntOp.cmpi
  by_cases h : x = y
  · subst h; simp
  · have hb : (x == y) = false := beq_eq_false_iff_ne.mpr h
    simp [hb, h]

/-! ## The correlation: the matrix product at an entry -/

private theorem lhs_corr_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
private theorem lhs_corr_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
private theorem rhs_corr_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
private theorem rhs_corr_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The product's entry `(a, b)`: the correlation of query row `a` with the tile's row `b`. -/
private theorem pay4_apply (q : Vec Ideal S512x512 .bf16) (k : Vec Ideal S1024x512 .bf16) (a : Fin 512) (b : Fin 1024) :
    k0_pay4 (F := Ideal) q k (ix2 a b) = ∑ j : Fin 512, q (ix2 a j) * k (ix2 b j) := by
  unfold k0_pay4
  rw [shapeCast_self, shapeCast_self]
  simp only [matmul]
  rw [Ideal.matmul_constant_zero_apply, ← Equiv.sum_comp (ValueIdx.contrEquiv1 dot_S512x512_S1024x512_S512x1024_1_1_0_0_n_n 512 rfl rfl).symm]
  refine Finset.sum_congr rfl fun j _ => ?_
  have hk := ValueIdx.contrEquiv1_symm_val dot_S512x512_S1024x512_S512x1024_1_1_0_0_n_n 512 rfl rfl j
  have el : dot_S512x512_S1024x512_S512x1024_1_1_0_0_n_n.lhsIdx (ix2 a b) ((ValueIdx.contrEquiv1 dot_S512x512_S1024x512_S512x1024_1_1_0_0_n_n 512 rfl rfl).symm j) = ix2 a j := funext fun c => Fin.ext (by
    match c with
    | ⟨0, _⟩ => exact lhs_corr_0 _ _
    | ⟨1, _⟩ => exact (lhs_corr_1 _ _).trans hk)
  have er : dot_S512x512_S1024x512_S512x1024_1_1_0_0_n_n.rhsIdx (ix2 a b) ((ValueIdx.contrEquiv1 dot_S512x512_S1024x512_S512x1024_1_1_0_0_n_n 512 rfl rfl).symm j) = ix2 b j := funext fun c => Fin.ext (by
    match c with
    | ⟨0, _⟩ => exact rhs_corr_0 _ _
    | ⟨1, _⟩ => exact (rhs_corr_1 _ _).trans hk)
  rw [el, er]

/-- The class test's entry `(a, b)`: the comparison of query row `a`'s word with the tile row `b`'s word. -/
private theorem pay5_apply (qt : Vec Ideal S512x1 .i32) (kt : Vec Ideal S1x1024 .i32) (a : Fin 512) (b : Fin 1024) :
    k0_pay5 (F := Ideal) qt kt (ix2 a b) = IntOp.cmpi .eq (qt (ix2 a (0 : Fin 1))) (kt (ix2 (0 : Fin 1) b)) := by
  unfold k0_pay5
  rw [shapeCast_self, shapeCast_self]
  show IntOp.cmpi .eq (broadcastTo S512x1024 qt broadcasts_S512x1_S512x1024 (ix2 a b)) (broadcastTo S512x1024 kt broadcasts_S1x1024_S512x1024 (ix2 a b)) = _
  rw [broadcastTo_a1_ab_apply, broadcastTo_1b_ab_apply]

/-- The minimum side's entry `(a, b)`: the correlation where the class words agree, the sentinel elsewhere. -/
private theorem keptMin_apply (q : Vec Ideal S512x512 .bf16) (k : Vec Ideal S1024x512 .bf16) (qt : Vec Ideal S512x1 .i32) (kt : Vec Ideal S1x1024 .i32)
    (a : Fin 512) (b : Fin 1024) :
    select (k0_pay5 (F := Ideal) qt kt) (k0_pay4 (F := Ideal) q k) (broadcast S512x1024 (FloatOps.ofBits (F := Ideal) .f32 0x7F7FFFFF#32)) (ix2 a b)
      = if qt (ix2 a (0 : Fin 1)) = kt (ix2 (0 : Fin 1) b) then (∑ j : Fin 512, q (ix2 a j) * k (ix2 b j)) else big := by
  rw [select_apply, pay5_apply, pay4_apply, broadcast_apply, select_cmpi_eq]
  rfl

/-- The maximum side's entry `(a, b)`: the sentinel where the class words agree, the correlation elsewhere. -/
private theorem keptMax_apply (q : Vec Ideal S512x512 .bf16) (k : Vec Ideal S1024x512 .bf16) (qt : Vec Ideal S512x1 .i32) (kt : Vec Ideal S1x1024 .i32)
    (a : Fin 512) (b : Fin 1024) :
    select (k0_pay5 (F := Ideal) qt kt) (broadcast S512x1024 (FloatOps.ofBits (F := Ideal) .f32 0xFF7FFFFF#32)) (k0_pay4 (F := Ideal) q k) (ix2 a b)
      = if qt (ix2 a (0 : Fin 1)) = kt (ix2 (0 : Fin 1) b) then nbig else (∑ j : Fin 512, q (ix2 a j) * k (ix2 b j)) := by
  rw [select_apply, pay5_apply, pay4_apply, broadcast_apply, select_cmpi_eq]
  rfl

/-- The running minimum after a tile: the previous one against the tile's least kept correlation. -/
theorem pay6_apply (q : Vec Ideal S512x512 .bf16) (k : Vec Ideal S1024x512 .bf16) (qt : Vec Ideal S512x1 .i32) (kt : Vec Ideal S1x1024 .i32)
    (prev : Vec Ideal S512x1 .f32) (a : Fin 512) :
    k0_pay6 (F := Ideal) q k qt kt prev (ix2 a (0 : Fin 1))
      = min (prev (ix2 a (0 : Fin 1)))
          (Finset.univ.fold min ⊤ fun b : Fin 1024 =>
            if qt (ix2 a (0 : Fin 1)) = kt (ix2 (0 : Fin 1) b) then (∑ j : Fin 512, q (ix2 a j) * k (ix2 b j)) else big) := by
  unfold k0_pay6
  rw [shapeCast_self, minimumf_apply]
  refine congrArg (min (prev (ix2 a (0 : Fin 1)))) ?_
  rw [shapeCast_a_a1_apply]
  refine (multiReduction_minimumf_single _ _ _ _ _ _).trans ?_
  have h0 : (FloatOps.ofBits .f32 0x7F800000#32 : Ideal .f32) = (⊤ : EReal) := ofBits_posInf
  rw [h0]
  refine Finset.fold_congr fun b _ => ?_
  exact (congrArg (select (k0_pay5 (F := Ideal) qt kt) (k0_pay4 (F := Ideal) q k) (broadcast S512x1024 (FloatOps.ofBits (F := Ideal) .f32 0x7F7FFFFF#32)))
    (lift_row a b)).trans (keptMin_apply q k qt kt a b)

/-- The running maximum after a tile: the previous one against the tile's greatest kept correlation. -/
theorem pay7_apply (q : Vec Ideal S512x512 .bf16) (k : Vec Ideal S1024x512 .bf16) (qt : Vec Ideal S512x1 .i32) (kt : Vec Ideal S1x1024 .i32)
    (prev : Vec Ideal S512x1 .f32) (a : Fin 512) :
    k0_pay7 (F := Ideal) q k qt kt prev (ix2 a (0 : Fin 1))
      = max (prev (ix2 a (0 : Fin 1)))
          (Finset.univ.fold max ⊥ fun b : Fin 1024 =>
            if qt (ix2 a (0 : Fin 1)) = kt (ix2 (0 : Fin 1) b) then nbig else (∑ j : Fin 512, q (ix2 a j) * k (ix2 b j))) := by
  unfold k0_pay7
  rw [shapeCast_self, maximumf_apply]
  refine congrArg (max (prev (ix2 a (0 : Fin 1)))) ?_
  rw [shapeCast_a_a1_apply]
  refine (Ideal.multiReduction_maximumf_single _ _ _ _ _ _).trans ?_
  have h0 : (FloatOps.ofBits .f32 0xFF800000#32 : Ideal .f32) = (⊥ : EReal) := ofBits_negInf
  rw [h0]
  refine Finset.fold_congr fun b _ => ?_
  exact (congrArg (select (k0_pay5 (F := Ideal) qt kt) (broadcast S512x1024 (FloatOps.ofBits (F := Ideal) .f32 0xFF7FFFFF#32)) (k0_pay4 (F := Ideal) q k))
    (lift_row a b)).trans (keptMax_apply q k qt kt a b)

/-- A row's loss from its two running values. -/
theorem pay1_apply (an ap : Vec Ideal S512x1 .f32) (a : Fin 512) :
    k0_pay1 (F := Ideal) an ap (ix2 a (0 : Fin 1)) = max (an (ix2 a (0 : Fin 1)) - ap (ix2 a (0 : Fin 1)) + margin) 0 := by
  unfold k0_pay1
  show max (an (ix2 a (0 : Fin 1)) - ap (ix2 a (0 : Fin 1)) + margin) (Ideal.ofBits .f32 0x00000000#32) = _
  rw [ofBits_zero]

end Cert.KernelIdeal.PayVal

end
-- ==== Proof.KI.Value.lean ====
/-
  What the idealized kernel program computes: the output array the region leaves holds, in row `r`, the tiled loss of
  row `r` of the specification, and so the program's result is the mean loss.

  Row `r` lies in row block `r / 512`. The four points of that row block walk the four column tiles; the scratch
  vectors after the fourth hold, at the row's place, the running minimum and maximum started at the sentinels and
  folded over the four tiles; the fourth point stores the row's loss into the output block, which is written back to
  rows `512 * (r / 512) … + 511` of the array and never written again. The blocks the body reads are blocks of the
  arrays the host operations before the region made: the features (narrowing is the identity on extended reals) and
  the class words laid out as a column and as a row.
-/
import proofs.«177996_j83717502533695_1_alg».proof.Proof.KI.OutArr
import proofs.«177996_j83717502533695_1_alg».proof.Proof.KI.Payload
import proofs.«177996_j83717502533695_1_alg».proof.Proof.LossSpec
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open Cert.LossSpec

variable (m : (ℓ : Loc nD τ sig) → Buf (Elt Ideal) ℓ)

/-- The feature matrix and the class words at launch, on core `c`. -/
abbrev featOf (c : Dev nD) : FVec Ideal ⟨2, ![4096, 512]⟩ .f32 := m ((c.tc : Thread nD τ).loc main_arg0)
abbrev tgOf (c : Dev nD) : IVec ⟨1, ![4096]⟩ 32 := m ((c.tc : Thread nD τ).loc main_arg1)

/-! ## The arrays the region finds -/

/-- The features as the region finds them: narrowing is the identity on the extended reals. -/
private theorem V_feat (c : Dev nD) (i : S4096x512.Idx) : (V (F := Ideal) m c main_v0 : S4096x512.Idx → EReal) i = featOf m c i := by
  show StableHlo.after hostOps0 (fun b => m (c, b)) (Proc.devRef .tc main_v0) i = _
  after_results
  rfl

/-- The class words laid out as a column. -/
private theorem V_tgcol (c : Dev nD) : (V (F := Ideal) m c main_v1 : S4096x1.Idx → BitVec 32) = shapeCast S4096x1 (tgOf m c) shapeCasts_S4096_S4096x1 := by
  show StableHlo.after hostOps0 (fun b => m (c, b)) (Proc.devRef .tc main_v1) = _
  after_results
  rfl

/-- The class words laid out as a row. -/
private theorem V_tgrow (c : Dev nD) : (V (F := Ideal) m c main_v2 : S1x4096.Idx → BitVec 32) = shapeCast S1x4096 (tgOf m c) shapeCasts_S4096_S1x4096 := by
  show StableHlo.after hostOps0 (fun b => m (c, b)) (Proc.devRef .tc main_v2) = _
  after_results
  rfl

/-- Entry `(r, 0)` of the column is word `r`. -/
private theorem V_tgcol_apply (c : Dev nD) (r : Fin 4096) : (V (F := Ideal) m c main_v1 : S4096x1.Idx → BitVec 32) (ix2 r (0 : Fin 1)) = tgOf m c (ix1 r) := by
  rw [V_tgcol]
  exact shapeCast_apply _ _ _ (ix1 r) (by rw [Shape.rowMajor_val_two, Shape.rowMajor_val_one]; show r.val = r.val * 1 + 0; omega)

/-- Entry `(0, r)` of the row is word `r`. -/
private theorem V_tgrow_apply (c : Dev nD) (r : Fin 4096) : (V (F := Ideal) m c main_v2 : S1x4096.Idx → BitVec 32) (ix2 (0 : Fin 1) r) = tgOf m c (ix1 r) := by
  rw [V_tgrow]
  exact shapeCast_apply _ _ _ (ix1 r) (by rw [Shape.rowMajor_val_two, Shape.rowMajor_val_one]; show r.val = 0 * 4096 + r.val; omega)

/-! ## The blocks the body reads, as blocks of those arrays -/

/-- The printed index maps over the grid: row-block windows sit at block `t / 4`, column-tile windows at tile `t % 4`. -/
private theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0 :=
  (by decide +kernel : ∀ t : Fin grid0.N, _)

/-- The row block of features at point `t`: rows `512 (t / 4) …` of the features. -/
private theorem qblk_apply (c : Dev nD) (t : Fin cfg0.N) (x : S512x512.Idx) (k : S4096x512.Idx)
    (hk0 : (k 0).val = 512 * (t.val / 4) + (x 0).val) (hk1 : (k 1).val = (x 1).val) :
    qblk (F := Ideal) m c t x = featOf m c k := by
  obtain ⟨e0, e1, -⟩ := idx_facts t
  rw [← V_feat]
  show iblk (F := Ideal) m c 0 t x = _
  unfold iblk
  rw [View.read_apply]
  show V m c main_v0 _ = V m c main_v0 _
  congr 1
  funext a
  apply Fin.ext
  match a with
  | ⟨0, _⟩ => show win0_0.index t 0 * 512 + 1 * (x 0).val = (k 0).val; omega
  | ⟨1, _⟩ => show win0_0.index t 1 * 512 + 1 * (x 1).val = (k 1).val; omega

/-- The column tile of features at point `t`: rows `1024 (t % 4) …` of the features. -/
private theorem kblk_apply (c : Dev nD) (t : Fin cfg0.N) (x : S1024x512.Idx) (k : S4096x512.Idx)
    (hk0 : (k 0).val = 1024 * (t.val % 4) + (x 0).val) (hk1 : (k 1).val = (x 1).val) :
    kblk (F := Ideal) m c t x = featOf m c k := by
  obtain ⟨-, -, e0, e1, -⟩ := idx_facts t
  rw [← V_feat]
  show iblk (F := Ideal) m c 1 t x = _
  unfold iblk
  rw [View.read_apply]
  show V m c main_v0 _ = V m c main_v0 _
  congr 1
  funext a
  apply Fin.ext
  match a with
  | ⟨0, _⟩ => show win0_1.index t 0 * 1024 + 1 * (x 0).val = (k 0).val; omega
  | ⟨1, _⟩ => show win0_1.index t 1 * 512 + 1 * (x 1).val = (k 1).val; omega

/-- The row block's class words at point `t`. -/
private theorem qtblk_apply (c : Dev nD) (t : Fin cfg0.N) (a : Fin 512) (r : Fin 4096) (hr : r.val = 512 * (t.val / 4) + a.val) :
    qtblk (F := Ideal) m c t (ix2 a (0 : Fin 1)) = tgOf m c (ix1 r) := by
  obtain ⟨-, -, -, -, e0, e1, -⟩ := idx_facts t
  rw [← V_tgcol_apply]
  show iblk (F := Ideal) m c 2 t (ix2 a (0 : Fin 1)) = _
  unfold iblk
  rw [View.read_apply]
  show V m c main_v1 _ = V m c main_v1 _
  congr 1
  funext d
  apply Fin.ext
  match d with
  | ⟨0, _⟩ => show win0_2.index t 0 * 512 + 1 * a.val = r.val; omega
  | ⟨1, _⟩ => show win0_2.index t 1 * 1 + 1 * 0 = 0; omega

/-- The column tile's class words at point `t`. -/
private theorem ktblk_apply (c : Dev nD) (t : Fin cfg0.N) (b : Fin 1024) (r : Fin 4096) (hr : r.val = 1024 * (t.val % 4) + b.val) :
    ktblk (F := Ideal) m c t (ix2 (0 : Fin 1) b) = tgOf m c (ix1 r) := by
  obtain ⟨-, -, -, -, -, -, e0, e1, -⟩ := idx_facts t
  rw [← V_tgrow_apply]
  show iblk (F := Ideal) m c 3 t (ix2 (0 : Fin 1) b) = _
  unfold iblk
  rw [View.read_apply]
  show V m c main_v2 _ = V m c main_v2 _
  congr 1
  funext d
  apply Fin.ext
  match d with
  | ⟨0, _⟩ => show win0_3.index t 0 * 1 + 1 * 0 = 0; omega
  | ⟨1, _⟩ => show win0_3.index t 1 * 1024 + 1 * b.val = r.val; omega

/-! ## The scratch vectors after the fourth tile of a row block -/

/-- One point's fold of the running minimum at row `a` of its block: against the least kept correlation of the point's tile. -/
private theorem foldTile_fst (c : Dev nD) (t : Fin cfg0.N) (s : Vec Ideal S512x1 .f32 × Vec Ideal S512x1 .f32) (a : Fin 512)
    (r : Fin 4096) (j : Fin 4) (hr : r.val = 512 * (t.val / 4) + a.val) (hj : j.val = t.val % 4) :
    (foldTile (F := Ideal) m c t s).1 (ix2 a (0 : Fin 1))
      = min (s.1 (ix2 a (0 : Fin 1))) (tileMin (posTab (featOf m c) (tgOf m c) r) j) := by
  refine (PayVal.pay6_apply _ _ _ _ _ a).trans (congrArg (min _) ?_)
  unfold tileMin
  refine Finset.fold_congr fun b _ => ?_
  have hcol : (tileCol j b).val = 1024 * (t.val % 4) + b.val := by show 1024 * j.val + b.val = _; rw [hj]
  rw [qtblk_apply m c t a r hr, ktblk_apply m c t b (tileCol j b) hcol]
  unfold posTab
  by_cases h : tgOf m c (ix1 r) = tgOf m c (ix1 (tileCol j b))
  · rw [if_pos h, if_pos h]
    unfold corr
    refine Finset.sum_congr rfl fun k _ => ?_
    rw [qblk_apply m c t (ix2 a k) (ix2 r k) hr rfl, kblk_apply m c t (ix2 b k) (ix2 (tileCol j b) k) hcol rfl]
  · rw [if_neg h, if_neg h]

/-- The same for the running maximum: against the greatest kept correlation of the point's tile. -/
private theorem foldTile_snd (c : Dev nD) (t : Fin cfg0.N) (s : Vec Ideal S512x1 .f32 × Vec Ideal S512x1 .f32) (a : Fin 512)
    (r : Fin 4096) (j : Fin 4) (hr : r.val = 512 * (t.val / 4) + a.val) (hj : j.val = t.val % 4) :
    (foldTile (F := Ideal) m c t s).2 (ix2 a (0 : Fin 1))
      = max (s.2 (ix2 a (0 : Fin 1))) (tileMax (negTab (featOf m c) (tgOf m c) r) j) := by
  refine (PayVal.pay7_apply _ _ _ _ _ a).trans (congrArg (max _) ?_)
  unfold tileMax
  refine Finset.fold_congr fun b _ => ?_
  have hcol : (tileCol j b).val = 1024 * (t.val % 4) + b.val := by show 1024 * j.val + b.val = _; rw [hj]
  rw [qtblk_apply m c t a r hr, ktblk_apply m c t b (tileCol j b) hcol]
  unfold negTab
  by_cases h : tgOf m c (ix1 r) = tgOf m c (ix1 (tileCol j b))
  · rw [if_pos h, if_pos h]
  · rw [if_neg h, if_neg h]
    unfold corr
    refine Finset.sum_congr rfl fun k _ => ?_
    rw [qblk_apply m c t (ix2 a k) (ix2 r k) hr rfl, kblk_apply m c t (ix2 b k) (ix2 (tileCol j b) k) hcol rfl]

/-- The scratch recursion does not look at the bound's proof. -/
private theorem scAt_congr (c : Dev nD) {n n' : ℕ} (h : n = n') (hn : n < cfg0.N) (hn' : n' < cfg0.N) :
    scAt (F := Ideal) m c n hn = scAt m c n' hn' := by
  subst h; rfl

/-- After a tile-3 point the scratch vectors are the four folds of the row block's tiles, started at the sentinels. -/
private theorem scAt_last (c : Dev nD) (t : Fin cfg0.N) (h3 : t.val % 4 = 3) :
    scAt (F := Ideal) m c t.val t.isLt
      = foldTile m c t (foldTile m c ⟨t.val - 1, Nat.lt_of_le_of_lt (Nat.sub_le _ _) t.isLt⟩
          (foldTile m c ⟨t.val - 2, Nat.lt_of_le_of_lt (Nat.sub_le _ _) t.isLt⟩
            (foldTile m c ⟨t.val - 3, Nat.lt_of_le_of_lt (Nat.sub_le _ _) t.isLt⟩ resetPair))) := by
  have e3 := scAt_step m c t (by omega)
  have e2 := scAt_step m c ⟨t.val - 1, Nat.lt_of_le_of_lt (Nat.sub_le _ _) t.isLt⟩ (by show ¬ (t.val - 1) % 4 = 0; omega)
  have e1 := scAt_step m c ⟨t.val - 2, Nat.lt_of_le_of_lt (Nat.sub_le _ _) t.isLt⟩ (by show ¬ (t.val - 2) % 4 = 0; omega)
  have e0 := scAt_reset m c ⟨t.val - 3, Nat.lt_of_le_of_lt (Nat.sub_le _ _) t.isLt⟩ (by show (t.val - 3) % 4 = 0; omega)
  rw [e3]
  refine congrArg (foldTile m c t) ?_
  refine e2.trans (congrArg (foldTile m c _) ?_)
  refine (scAt_congr m c (by show t.val - 1 - 1 = t.val - 2; omega) _ (Nat.lt_of_le_of_lt (Nat.sub_le _ _) t.isLt)).trans ?_
  refine e1.trans (congrArg (foldTile m c _) ?_)
  refine (scAt_congr m c (by show t.val - 2 - 1 = t.val - 3; omega) _ (Nat.lt_of_le_of_lt (Nat.sub_le _ _) t.isLt)).trans ?_
  exact e0

/-- What a tile-3 point stores at row `a` of its block is that row's tiled loss. -/
private theorem outAt_apply (c : Dev nD) (t : Fin cfg0.N) (h3 : t.val % 4 = 3) (a : Fin 512) (r : Fin 4096)
    (hr : r.val = 512 * (t.val / 4) + a.val) :
    outAt (F := Ideal) m c t (ix2 a (0 : Fin 1)) = rowLossTiled (featOf m c) (tgOf m c) r := by
  unfold outAt
  rw [PayVal.pay1_apply, scAt_last m c t h3]
  have d1 : (t.val - 1) / 4 = t.val / 4 := by omega
  have d2 : (t.val - 2) / 4 = t.val / 4 := by omega
  have d3 : (t.val - 3) / 4 = t.val / 4 := by omega
  rw [foldTile_fst m c t _ a r 3 hr (by show 3 = t.val % 4; omega),
    foldTile_fst m c ⟨t.val - 1, _⟩ _ a r 2 (by show r.val = 512 * ((t.val - 1) / 4) + a.val; rw [d1]; exact hr) (by show 2 = (t.val - 1) % 4; omega),
    foldTile_fst m c ⟨t.val - 2, _⟩ _ a r 1 (by show r.val = 512 * ((t.val - 2) / 4) + a.val; rw [d2]; exact hr) (by show 1 = (t.val - 2) % 4; omega),
    foldTile_fst m c ⟨t.val - 3, _⟩ _ a r 0 (by show r.val = 512 * ((t.val - 3) / 4) + a.val; rw [d3]; exact hr) (by show 0 = (t.val - 3) % 4; omega),
    foldTile_snd m c t _ a r 3 hr (by show 3 = t.val % 4; omega),
    foldTile_snd m c ⟨t.val - 1, _⟩ _ a r 2 (by show r.val = 512 * ((t.val - 1) / 4) + a.val; rw [d1]; exact hr) (by show 2 = (t.val - 1) % 4; omega),
    foldTile_snd m c ⟨t.val - 2, _⟩ _ a r 1 (by show r.val = 512 * ((t.val - 2) / 4) + a.val; rw [d2]; exact hr) (by show 1 = (t.val - 2) % 4; omega),
    foldTile_snd m c ⟨t.val - 3, _⟩ _ a r 0 (by show r.val = 512 * ((t.val - 3) / 4) + a.val; rw [d3]; exact hr) (by show 0 = (t.val - 3) % 4; omega)]
  show max (max (max (max (max (k0_pay3 (F := Ideal) (ix2 a (0 : Fin 1))) _) _) _) _ - min (min (min (min (k0_pay2 (F := Ideal) (ix2 a (0 : Fin 1))) _) _) _) _ + margin) 0 = _
  rw [PayVal.pay2_apply, PayVal.pay3_apply]
  rfl

/-! ## From the blocks to the array -/

/-- The column the region should leave: in row `i 0`, that row's tiled loss. -/
private abbrev lossCol (c : Dev nD) : S4096x1.Idx → EReal := fun i => rowLossTiled (featOf m c) (tgOf m c) (i 0)

/-- What a tile-3 point stores, at any place of its block, is `lossCol` at the place's row of the array. -/
private theorem outAt_block (c : Dev nD) (t : Fin cfg0.N) (h3 : t.val % 4 = 3) (y : S512x1.Idx) (i : S4096x1.Idx)
    (hi : (i 0).val = 512 * (t.val / 4) + (y 0).val) :
    outAt (F := Ideal) m c t y = lossCol m c i := by
  have hy : y = ix2 (y 0) (0 : Fin 1) := by
    refine (eq_ix2 y).trans ?_
    have h1 : y 1 = (0 : Fin 1) := Fin.ext (by have := idx2_lt1 y; show (y 1).val = 0; omega)
    rw [h1]
    rfl
  rw [hy]
  exact outAt_apply m c t h3 (y 0) (i 0) hi

/-- A tile-3 point writes back its block of `lossCol`. -/
private theorem flushed_eq (c : Dev nD) (t : Fin cfg0.N) (hf : (cfg0.win 4).flush t = true) :
    (dats (F := Ideal) m 0 c).flushed 4 t = ((cfg0.win 4).blk t).view.read (Elt Ideal) (lossCol m c) := by
  have h3 : t.val % 4 = 3 := (flush0_4 t).mp hf
  obtain ⟨-, -, -, -, -, -, -, -, e0, e1⟩ := idx_facts t
  show (cfg0.win 4).cut (grid0.coords t) ((dats m 0 c).after 4 t) = _
  rw [after0_4]
  funext y
  show outAt (F := Ideal) m c t y = lossCol m c (((cfg0.win 4).blk t).view.emb y)
  exact outAt_block m c t h3 y _ (by show win0_4.index t 0 * 512 + 1 * (y 0).val = _; omega)

/-- An index of the output array is in point `t`'s block iff each coordinate is in the block's range on its axis. -/
private theorem mem_blk (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v3).slice (win0_4.rect t)).set ↔ _
  rw [View.set_slice_whole, Rect.mem_set_unit]
  exact Iff.rfl

/-- Row `r` is written back by the tile-3 point of its row block, `4 (r / 512) + 3`. -/
private theorem cover (i : S4096x1.Idx) : ∃ t : Fin cfg0.N, (cfg0.win 4).flush t = true ∧ i ∈ ((cfg0.win 4).blk t).view.set := by
  have hN : cfg0.N = 32 := N_0
  have hi0 : (i 0).val < 4096 := idx2_lt0 i
  have hi1 : (i 1).val < 1 := idx2_lt1 i
  have ht : 4 * ((i 0).val / 512) + 3 < cfg0.N := by omega
  obtain ⟨-, -, -, -, -, -, -, -, e0, e1⟩ := idx_facts ⟨4 * ((i 0).val / 512) + 3, ht⟩
  have e0' : win0_4.index ⟨4 * ((i 0).val / 512) + 3, ht⟩ 0 = (i 0).val / 512 := by
    rw [e0]; show (4 * ((i 0).val / 512) + 3) / 4 = _; omega
  refine ⟨⟨4 * ((i 0).val / 512) + 3, ht⟩, (flush0_4 _).mpr (by show (4 * ((i 0).val / 512) + 3) % 4 = 3; omega), ?_⟩
  rw [mem_blk]
  intro a
  match a with
  | ⟨0, _⟩ => show win0_4.index ⟨4 * ((i 0).val / 512) + 3, ht⟩ 0 * 512 ≤ (i 0).val ∧ (i 0).val < win0_4.index ⟨4 * ((i 0).val / 512) + 3, ht⟩ 0 * 512 + 512; omega
  | ⟨1, _⟩ => show win0_4.index ⟨4 * ((i 0).val / 512) + 3, ht⟩ 1 * 1 ≤ (i 1).val ∧ (i 1).val < win0_4.index ⟨4 * ((i 0).val / 512) + 3, ht⟩ 1 * 1 + 1; omega

/-- The output array after the region: every row's tiled loss. -/
private theorem outArr_eq (c : Dev nD) : outArr (F := Ideal) m c = lossCol m c :=
  (dats (F := Ideal) m 0 c).arrAt_eq_of_cover 4 (lossCol m c) (fun t hf => flushed_eq m c t hf) cover

/-- Row `r` of the output array the region leaves is the row's tiled loss. -/
theorem out_row (c : Dev nD) (r : Fin 4096) :
    outArr (F := Ideal) m c (ix2 r (0 : Fin 1)) = rowLossTiled (featOf m c) (tgOf m c) r := by
  exact congrFun (outArr_eq m c) (ix2 r (0 : Fin 1))

/-- The program's result — the output column summed from zero and divided by 4096 — is the mean loss. -/
theorem result_eq (c : Dev nD) :
    Host.divf (F := Ideal) (Host.reduceAdd (outArr (F := Ideal) m c) (constant (F := Ideal) S_ .f32 0x00000000#32) Facts₀.reducesTo_S4096x1_S_d0_1 Facts₀.h_S_) (constant (F := Ideal) S_ .f32 0x45800000#32)
      = fun _ => meanLoss (featOf m c) (tgOf m c) := by
  funext j
  show Ideal.div (Ideal.hostReduceAdd Facts₀.reducesTo_S4096x1_S_d0_1 (outArr (F := Ideal) m c) (Ideal.ofBits .f32 0x00000000#32) j) (Ideal.ofBits .f32 0x45800000#32) = _
  rw [Ideal.hostReduceAdd_total _ (fun b => b.elim0), sum_idx2]
  unfold meanLoss
  refine congrArg (fun s => Ideal.div (Ideal.ofBits .f32 0x00000000#32 + s) (Ideal.ofBits .f32 0x45800000#32)) ?_
  refine Finset.sum_congr rfl fun r _ => ?_
  rw [Fin.sum_univ_one, out_row]
  exact rowLossTiled_eq _ _ r

end Cert.KernelIdeal.HandValue

end
-- ==== Proof.RefImports.lean ====
/- The reference program's run and its operations read one at a time, gathered for the modules that state what the reference computes. -/
import proofs.«177996_j83717502533695_1_alg».proof.Proof.Gen.ReferenceIdeal.Run
import proofs.«177996_j83717502533695_1_alg».proof.Proof.Gen.ReferenceIdeal.Read
-- ==== Proof.RefRow.lean ====
/-
  What the reference program computes, row by row: its per-row value is the row's loss of the specification, and its
  result is the mean of the rows' losses.

  The reference forms the full 4096 × 4096 correlation matrix as a product with the transposed feature matrix, the
  class mask by comparing two broadcasts of the class words, replaces the masked-out entries by the largest finite single
  (for the minimum) or its negation (for the maximum), reduces each row with `min` from +∞ and `max` from −∞, takes
  `max (an - ap + 40) 0` per row, sums the 4096 rows from 0 and divides by 4096.
-/
import proofs.«177996_j83717502533695_1_alg».proof.Proof.RefImports
import proofs.«177996_j83717502533695_1_alg».proof.Proof.LossSpec
import Idealize.ShloMosaic.Lib.ValueIdx
import Idealize.ShloMosaic.Lib.ValueIdxRank1
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.StableHlo Idealize.ShloMosaic.ValueIdx
open Cert.LossSpec

/-- The 4096 × 4096 shape loses its column axis to the 4096 shape. -/
private theorem red_cols : S4096x4096.Reduces [1] S4096 := by decide

/-- Over row `r`, the index with column `k` inserted is `(r, k)`. -/
private theorem lift_row (r : Fin 4096) (k : Fin 4096) : red_cols.lift (ix1 r) k = ix2 r k := by
  funext a
  apply Fin.ext
  match a with
  | ⟨0, _⟩ => rfl
  | ⟨1, _⟩ => rfl

/-- The row-side broadcast of the class words reads row `r`'s word. -/
private theorem v4_at (tg : (⟨S4096, .i32⟩ : BufTy).Contents (Elt Ideal)) (r j : Fin 4096) :
    val_main_v4 (F := Ideal) tg (ix2 r j) = tg (ix1 r) := by
  rw [val_main_v4_apply, val_main_v2_apply]
  exact congrArg tg (funext fun a => match a with | ⟨0, _⟩ => rfl)

/-- The column-side broadcast of the class words reads row `j`'s word. -/
private theorem v5_at (tg : (⟨S4096, .i32⟩ : BufTy).Contents (Elt Ideal)) (r j : Fin 4096) :
    val_main_v5 (F := Ideal) tg (ix2 r j) = tg (ix1 j) := by
  rw [val_main_v5_apply, val_main_v3_apply]
  exact congrArg tg (funext fun a => match a with | ⟨0, _⟩ => rfl)

/-- The product with the transposed matrix, at `(r, j)`, is the correlation of rows `r` and `j`. -/
private theorem v1_at (feat : (⟨S4096x512, .f32⟩ : BufTy).Contents (Elt Ideal)) (r j : Fin 4096) :
    val_main_v1 (F := Ideal) feat (ix2 r j) = corr feat r j := by
  rw [val_main_v1_apply]
  unfold corr
  refine Finset.sum_congr rfl fun k _ => ?_
  rw [val_main_v0_apply]
  have e1 : lidx_main_v1 (ix2 r j) k = ix2 r k := funext fun a => match a with | ⟨0, _⟩ => rfl | ⟨1, _⟩ => rfl
  have e2 : idx_main_v0 (ridx_main_v1 (ix2 r j) k) = ix2 j k := funext fun a => match a with | ⟨0, _⟩ => rfl | ⟨1, _⟩ => rfl
  rw [e1, e2]

/-- The compare's bit on equal words. -/
private theorem cmpi_eq_one {w : Nat} (a b : BitVec w) (h : a = b) : IntOp.cmpi .eq a b = 1#1 := by
  subst h; simp [IntOp.cmpi]

/-- The compare's bit on different words. -/
private theorem cmpi_eq_zero {w : Nat} (a b : BitVec w) (h : a ≠ b) : IntOp.cmpi .eq a b = 0#1 := by
  show BitVec.ofBool (a == b) = 0#1
  rw [beq_eq_false_iff_ne.mpr h]; rfl

/-- The minimum side's entry at `(r, j)`: the correlation where the classes agree, the largest finite single elsewhere. -/
private theorem v7_at (feat : (⟨S4096x512, .f32⟩ : BufTy).Contents (Elt Ideal)) (tg : (⟨S4096, .i32⟩ : BufTy).Contents (Elt Ideal))
    (r j : Fin 4096) : val_main_v7 (F := Ideal) feat tg (ix2 r j) = posTab feat tg r j := by
  rw [val_main_v7_apply, val_main_v6_apply, v4_at, v5_at, v1_at, val_main_call0_v0_apply, val_main_cst_apply]
  unfold posTab
  by_cases h : tg (ix1 r) = tg (ix1 j)
  · rw [if_pos h, cmpi_eq_one _ _ h, select_one]
  · rw [if_neg h, cmpi_eq_zero _ _ h, select_zero]; rfl

/-- The maximum side's entry at `(r, j)`: the negated largest finite single where the classes agree, the correlation elsewhere. -/
private theorem v10_at (feat : (⟨S4096x512, .f32⟩ : BufTy).Contents (Elt Ideal)) (tg : (⟨S4096, .i32⟩ : BufTy).Contents (Elt Ideal))
    (r j : Fin 4096) : val_main_v10 (F := Ideal) feat tg (ix2 r j) = negTab feat tg r j := by
  rw [val_main_v10_apply, val_main_v6_apply, v4_at, v5_at, v1_at, val_main_call1_v0_apply, val_main_v9_apply, val_main_cst_1_apply]
  unfold negTab
  by_cases h : tg (ix1 r) = tg (ix1 j)
  · rw [if_pos h, cmpi_eq_one _ _ h, select_one, nbig_eq]; rfl
  · rw [if_neg h, cmpi_eq_zero _ _ h, select_zero]

/-- The row minimum: the least entry of the minimum side's table, from `⊤`. -/
private theorem v8_row (feat : (⟨S4096x512, .f32⟩ : BufTy).Contents (Elt Ideal)) (tg : (⟨S4096, .i32⟩ : BufTy).Contents (Elt Ideal))
    (r : Fin 4096) : val_main_v8 (F := Ideal) feat tg (ix1 r) = Finset.univ.fold min ⊤ (posTab feat tg r) := by
  unfold val_main_v8
  refine (Host.reduce_eq_fold_single (a := 1) FloatOps.minimumf _ _ reducesTo_S4096x4096_S4096_d1 red_cols h_S_ (ix1 r)).trans ?_
  rw [val_main_cst_0_apply, Ideal.ofBits_def, ofBits_posInf]
  exact congrArg (fun f : Fin 4096 → EReal => Finset.univ.fold min ⊤ f)
    (funext fun k : Fin 4096 => (congrArg (val_main_v7 (F := Ideal) feat tg) (lift_row r k)).trans (v7_at feat tg r k))

/-- The row maximum: the greatest entry of the maximum side's table, from `⊥`. -/
private theorem v11_row (feat : (⟨S4096x512, .f32⟩ : BufTy).Contents (Elt Ideal)) (tg : (⟨S4096, .i32⟩ : BufTy).Contents (Elt Ideal))
    (r : Fin 4096) : val_main_v11 (F := Ideal) feat tg (ix1 r) = Finset.univ.fold max ⊥ (negTab feat tg r) := by
  unfold val_main_v11
  refine (Host.reduce_eq_fold_single (a := 1) FloatOps.maximumf _ _ reducesTo_S4096x4096_S4096_d1 red_cols h_S_ (ix1 r)).trans ?_
  rw [val_main_cst_2_apply, Ideal.ofBits_def, ofBits_negInf]
  exact congrArg (fun f : Fin 4096 → EReal => Finset.univ.fold max ⊥ f)
    (funext fun k : Fin 4096 => (congrArg (val_main_v10 (F := Ideal) feat tg) (lift_row r k)).trans (v10_at feat tg r k))

/-- The reference's per-row value (its `relu` stage) at row `r` is the row's loss. -/
theorem row_eq (feat : (⟨S4096x512, .f32⟩ : BufTy).Contents (Elt Ideal)) (tg : (⟨S4096, .i32⟩ : BufTy).Contents (Elt Ideal)) (r : Fin 4096) :
    val_main_v15 (F := Ideal) feat tg (ix1 r) = rowLoss feat tg r := by
  rw [val_main_v15_apply, val_main_v14_apply, val_main_v12_apply, val_main_v13_apply, val_main_cst_3_apply,
    val_main_call2_v0_apply, val_main_call2_cst_apply, v8_row, v11_row]
  simp only [Ideal.maximumf_def, Ideal.addf_def, Ideal.subf_def, Ideal.ofBits_def]
  rw [ofBits_zero]
  rfl

/-- The reference's result is the mean of the rows' losses. -/
theorem result_eq (feat : (⟨S4096x512, .f32⟩ : BufTy).Contents (Elt Ideal)) (tg : (⟨S4096, .i32⟩ : BufTy).Contents (Elt Ideal)) :
    val_main_v17 (F := Ideal) feat tg = fun _ => meanLoss feat tg := by
  funext i
  have hs : ∑ j : S4096.Idx, val_main_v15 (F := Ideal) feat tg j = ∑ r : Fin 4096, rowLoss feat tg r := by
    rw [← Equiv.sum_comp (idxEquiv1 (n := 4096)).symm]
    exact Finset.sum_congr rfl fun r _ => row_eq feat tg r
  rw [val_main_v17_apply, val_main_v16_apply, val_main_cst_4_apply, val_main_cst_5_apply, Ideal.hostDivf_def, hs]
  rfl

end Cert.ReferenceIdeal.RefValue

end
-- ==== Proof.lean ====
/-
  The certificate: the tiled correlation-loss kernel against its whole-matrix reference, over the extended reals.

  Both programs compute, for 4096 feature rows with a class word each, the mean over the rows of
  `max (an - ap + 40) 0`, where `ap` is the least correlation of the row with a row of its own class and `an` the
  greatest with a row of another class, entries of the wrong kind replaced by ± the largest finite single.
  The kernel walks 8 row blocks by 4 column tiles and keeps running values that start at those sentinels; the
  reference reduces each whole row from ±∞. The running minimum is `min big` of the true one, which the loss does
  not see: a true minimum above `big` forces the maximum side to its sentinel, and both losses are 0 (Proof/LossSpec.lean).

  The three frames: the two kernel programs by the run of the pipelined region between the host operations
  (Proof/K/Launch.lean at the word level, Proof/KI/Launch.lean at the ideal values: one text, the float instance a
  parameter), the reference by its run. The value claim: the kernel's run ends with the result buffer at the mean of
  the output column the region left (Proof/KI/Launch.lean), which is the mean loss (Proof/KI/Value.lean); the
  reference's run ends at its composed term, which is the mean loss too (Proof/RefRow.lean).
-/
import proofs.«177996_j83717502533695_1_alg».proof.Defs
import proofs.«177996_j83717502533695_1_alg».proof.Proof.Gen.Kernel
import proofs.«177996_j83717502533695_1_alg».proof.Proof.Gen.KernelIdeal
import proofs.«177996_j83717502533695_1_alg».proof.Proof.Gen.ReferenceIdeal
import proofs.«177996_j83717502533695_1_alg».proof.Proof.Gen.Pre_finite_inputs
import proofs.«177996_j83717502533695_1_alg».proof.Proof.K.Launch
import proofs.«177996_j83717502533695_1_alg».proof.Proof.KI.Launch
import proofs.«177996_j83717502533695_1_alg».proof.Proof.KI.Value
import proofs.«177996_j83717502533695_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel program runs to its end and leaves its arguments as they were. -/
theorem frame_k : Cert.frame_Kernel := fun m ρ _ =>
  (θ_run Cert.Kernel.defs _ _).mono (fun _ h c => ⟨(h c).2.1, (h c).2.2⟩) (Cert.Kernel.Hand.run_main (F := Bits) m ρ)

/-- So does the idealized kernel program. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal values. -/
theorem preserves : Cert.preserves_Kernel_KernelIdeal := trivial

/-- From memories that agree on the arguments both idealized programs end with the mean loss in their result buffer. -/
theorem algebraic : Cert.algebraic_KernelIdeal_ReferenceIdeal := by
  intro m ρ m' ρ' _ hagree
  refine ⟨fun c => fun _ => Cert.LossSpec.meanLoss (Cert.KernelIdeal.HandValue.featOf m c) (Cert.KernelIdeal.HandValue.tgOf m c), ?_, ?_⟩
  · exact (θ_run Cert.KernelIdeal.defs _ _).mono
      (fun _ h c => ⟨((h c).1).trans (Cert.KernelIdeal.HandValue.result_eq m c), (h c).2.1, (h c).2.2⟩)
      (Cert.KernelIdeal.Hand.run_main (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v17_eq, Cert.ReferenceIdeal.RefValue.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
